-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x8x32x32 : Shape := ⟨5, ![4, 64, 8, 32, 32]⟩
abbrev S32x64 : Shape := ⟨2, ![32, 64]⟩
abbrev S64x64 : Shape := ⟨2, ![64, 64]⟩
abbrev S64 : Shape := ⟨1, ![64]⟩
abbrev S_ : Shape := ⟨0, ![]⟩

class Facts : Prop where
  bcast_S_S4x64x8x32x32 : S_.BroadcastsInDim S4x64x8x32x32 (![] : Fin 0 → Fin S4x64x8x32x32.rank)
  reducesTo_S4x64x8x32x32_S_d0_1_2_3_4 : S4x64x8x32x32.ReducesTo [0, 1, 2, 3, 4] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x64x8x32x32 .f32) (main_arg1 : FVec F S32x64 .f32) (main_arg2 : FVec F S32x64 .f32) (main_arg3 : FVec F S64x64 .f32) (main_arg4 : FVec F S64 .f32) : IVec S_ 1 :=
  let main_v0 : FVec F S4x64x8x32x32 .f32 := Host.absf main_arg0
  let main_cst : FVec F S_ .f32 := constant S_ .f32 0x7F800000#32
  let main_v1 : FVec F S4x64x8x32x32 .f32 := broadcastInDim S4x64x8x32x32 ![] bcast_S_S4x64x8x32x32 main_cst
  let main_v2 : IVec S4x64x8x32x32 1 := cmpf .olt main_v0 main_v1
  let main_c : IVec S_ 1 := constantI S_ 1 1#1
  let main_v3 : IVec S_ 1 := (fun x v => Host.reduce IntOp.andi x v reducesTo_S4x64x8x32x32_S_d0_1_2_3_4 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S4x64x8x32x32 : Shape := ⟨5, ![4, 64, 8, 32, 32]⟩
abbrev S32x64 : Shape := ⟨2, ![32, 64]⟩
abbrev S64x64 : Shape := ⟨2, ![64, 64]⟩
abbrev S64 : Shape := ⟨1, ![64]⟩
abbrev S4x64x8192 : Shape := ⟨3, ![4, 64, 8192]⟩
abbrev S4x8192x64 : Shape := ⟨3, ![4, 8192, 64]⟩
abbrev S4x1x64 : Shape := ⟨3, ![4, 1, 64]⟩
abbrev S1x512x64 : Shape := ⟨3, ![1, 512, 64]⟩
abbrev S1x1x64 : Shape := ⟨3, ![1, 1, 64]⟩
abbrev S1x64 : Shape := ⟨2, ![1, 64]⟩
abbrev S512x64 : Shape := ⟨2, ![512, 64]⟩
abbrev S512x1x64 : Shape := ⟨3, ![512, 1, 64]⟩
abbrev S1x32x64 : Shape := ⟨3, ![1, 32, 64]⟩
abbrev S512x32x64 : Shape := ⟨3, ![512, 32, 64]⟩
abbrev S4x64 : Shape := ⟨2, ![4, 64]⟩
abbrev S_ : Shape := ⟨0, ![]⟩
abbrev S1x2048x64 : Shape := ⟨3, ![1, 2048, 64]⟩
abbrev S2048x64 : Shape := ⟨2, ![2048, 64]⟩

abbrev nBuf : Space → Nat
  | .hbm => 30
  | .vmem => 15
  | .smem => 0
  | _ => 0

abbrev bufTy : (tb : Table) → Fin (tcTables nBuf tb) → BufTy
  | .hbm, ⟨0, _⟩ => ⟨S4x64x8x32x32, .f32⟩
  | .hbm, ⟨1, _⟩ => ⟨S32x64, .f32⟩
  | .hbm, ⟨2, _⟩ => ⟨S32x64, .f32⟩
  | .hbm, ⟨3, _⟩ => ⟨S64x64, .f32⟩
  | .hbm, ⟨4, _⟩ => ⟨S64, .f32⟩
  | .hbm, ⟨5, _⟩ => ⟨S4x64x8192, .f32⟩
  | .hbm, ⟨6, _⟩ => ⟨S4x8192x64, .f32⟩
  | .hbm, ⟨7, _⟩ => ⟨S4x8192x64, .f32⟩
  | .hbm, ⟨8, _⟩ => ⟨S4x1x64, .f32⟩
  | .hbm, ⟨9, _⟩ => ⟨S4x64, .f32⟩
  | .hbm, ⟨10, _⟩ => ⟨S_, .f32⟩
  | .hbm, ⟨11, _⟩ => ⟨S4x64, .f32⟩
  | .hbm, ⟨12, _⟩ => ⟨S4x64, .f32⟩
  | .hbm, ⟨13, _⟩ => ⟨S64x64, .f32⟩
  | .hbm, ⟨14, _⟩ => ⟨S4x64, .f32⟩
  | .hbm, ⟨15, _⟩ => ⟨S1x64, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S4x64, .f32⟩
  | .hbm, ⟨20, _⟩ => ⟨S_, .f32⟩
  | .hbm, ⟨21, _⟩ => ⟨S4x64, .f32⟩
  | .hbm, ⟨22, _⟩ => ⟨S4x64, .f32⟩
  | .hbm, ⟨23, _⟩ => ⟨S_, .f32⟩
  | .hbm, ⟨24, _⟩ => ⟨S4x64, .f32⟩
  | .hbm, ⟨25, _⟩ => ⟨S4x64, .f32⟩
  | .hbm, ⟨26, _⟩ => ⟨S4x1x64, .f32⟩
  | .hbm, ⟨27, _⟩ => ⟨S4x8192x64, .f32⟩
  | .hbm, ⟨28, _⟩ => ⟨S4x64x8192, .f32⟩
  | .hbm, ⟨29, _⟩ => ⟨S4x64x8x32x32, .f32⟩
  | .local _ .vmem, ⟨0, _⟩ => ⟨S1x512x64, .f32⟩
  | .local _ .vmem, ⟨1, _⟩ => ⟨S1x512x64, .f32⟩
  | .local _ .vmem, ⟨2, _⟩ => ⟨S32x64, .f32⟩
  | .local _ .vmem, ⟨3, _⟩ => ⟨S32x64, .f32⟩
  | .local _ .vmem, ⟨4, _⟩ => ⟨S1x512x64, .f32⟩
  | .local _ .vmem, ⟨5, _⟩ => ⟨S1x512x64, .f32⟩
  | .local _ .vmem, ⟨6, _⟩ => ⟨S1x1x64, .f32⟩
  | .local _ .vmem, ⟨7, _⟩ => ⟨S1x1x64, .f32⟩
  | .local _ .vmem, ⟨8, _⟩ => ⟨S1x64, .f32⟩
  | .local _ .vmem, ⟨9, _⟩ => ⟨S1x2048x64, .f32⟩
  | .local _ .vmem, ⟨10, _⟩ => ⟨S1x2048x64, .f32⟩
  | .local _ .vmem, ⟨11, _⟩ => ⟨S1x1x64, .f32⟩
  | .local _ .vmem, ⟨12, _⟩ => ⟨S1x1x64, .f32⟩
  | .local _ .vmem, ⟨13, _⟩ => ⟨S1x2048x64, .f32⟩
  | .local _ .vmem, ⟨14, _⟩ => ⟨S1x2048x64, .f32⟩
  | _, _ => ⟨S4x64x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_18 : BitVec 32 := 0#32
  let v41 : BitVec 1 := Scalar.cmpi .ne v40 c0_i32_18
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x64x8x32x32_S4x64x8192 : S4x64x8x32x32.ShapeCasts S4x64x8192
  transposes_S4x64x8192_S4x8192x64_0_2_1 : S4x64x8192.Transposes [0, 2, 1] S4x8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S32x64_S32x64_0_0 : ∀ a, (![0, 0] : Fin 2 → Nat) a + S32x64.size a ≤ S32x64.size a
  h_S32x64 : 0 < S32x64.numel
  shapeCasts_S512x64_S512x1x64 : S512x64.ShapeCasts S512x1x64
  shapeCasts_S32x64_S1x32x64 : S32x64.ShapeCasts S1x32x64
  broadcasts_S512x1x64_S512x32x64 : S512x1x64.Broadcasts S512x32x64
  broadcasts_S1x32x64_S512x32x64 : S1x32x64.Broadcasts S512x32x64
  reduces_S512x32x64_S512x64 : S512x32x64.Reduces [1] S512x64
  shapeCasts_S512x64_S1x512x64 : S512x64.ShapeCasts S1x512x64
  reduces_S512x64_S64 : S512x64.Reduces [0] S64
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  shapeCasts_S4x1x64_S4x64 : S4x1x64.ShapeCasts S4x64
  bcast_S_S4x64 : S_.BroadcastsInDim S4x64 (![] : Fin 0 → Fin S4x64.rank)
  transposes_S64x64_S64x64_1_0 : S64x64.Transposes [1, 0] S64x64
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  shapeCasts_S4x64_S4x1x64 : S4x64.ShapeCasts S4x1x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  broadcasts_S1x64_S2048x64 : S1x64.Broadcasts S2048x64
  shapeCasts_S2048x64_S1x2048x64 : S2048x64.ShapeCasts S1x2048x64
  transposes_S4x8192x64_S4x64x8192_0_2_1 : S4x8192x64.Transposes [0, 2, 1] S4x64x8192
  shapeCasts_S4x64x8192_S4x64x8x32x32 : S4x64x8192.ShapeCasts S4x64x8x32x32
  dot_S4x64_S64x64_S4x64_1_0_0_1_n_n_wf : DotDims.WF S4x64 S64x64 S4x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x8192x64.size a
  hwx0_0 : ∀ i : grid0.Coords, EltTy.bits .f32 = 32 ∨ (Rect.block (s := S4x8192x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S4x8192x64.size a
  hwx0_3 : ∀ i : grid0.Coords, EltTy.bits .f32 = 32 ∨ (Rect.block (s := S4x8192x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S4x1x64.size a
  hwx0_4 : ∀ i : grid0.Coords, EltTy.bits .f32 = 32 ∨ (Rect.block (s := S4x1x64) S1x1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S4x8192x64.size a
  hwx1_0 : ∀ i : grid1.Coords, EltTy.bits .f32 = 32 ∨ (Rect.block (s := S4x8192x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64.size a ≤ S4x1x64.size a
  hwx1_1 : ∀ i : grid1.Coords, EltTy.bits .f32 = 32 ∨ (Rect.block (s := S4x1x64) S1x1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x8192x64.size a
  hwx1_2 : ∀ i : grid1.Coords, EltTy.bits .f32 = 32 ∨ (Rect.block (s := S4x8192x64) S1x2048x64.size (cc1_transform_2 i) (hinb1_2 i)).WholeWords (EltTy.packing .f32)

variable [Facts₀]

def dot_S4x64_S64x64_S4x64_1_0_0_1_n_n : DotDims S4x64 S64x64 S4x64 where
  lhsContracting := [1]
  rhsContracting := [0]
  lhsNonContracting := [0]
  rhsNonContracting := [1]
  lhsBatch := []
  rhsBatch := []
  wf := dot_S4x64_S64x64_S4x64_1_0_0_1_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2_0) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x8x32x32 : Shape := ⟨5, ![4, 64, 8, 32, 32]⟩
abbrev S32x64 : Shape := ⟨2, ![32, 64]⟩
abbrev S64x64 : Shape := ⟨2, ![64, 64]⟩
abbrev S64 : Shape := ⟨1, ![64]⟩
abbrev S4x64x8192 : Shape := ⟨3, ![4, 64, 8192]⟩
abbrev S4x8192x64 : Shape := ⟨3, ![4, 8192, 64]⟩
abbrev S4x8192x1x64 : Shape := ⟨4, ![4, 8192, 1, 64]⟩
abbrev S1x1x32x64 : Shape := ⟨4, ![1, 1, 32, 64]⟩
abbrev S4x8192x32x64 : Shape := ⟨4, ![4, 8192, 32, 64]⟩
abbrev S_ : Shape := ⟨0, ![]⟩
abbrev S4x32x64 : Shape := ⟨3, ![4, 32, 64]⟩
abbrev S4x64 : Shape := ⟨2, ![4, 64]⟩
abbrev S1x64 : Shape := ⟨2, ![1, 64]⟩
abbrev S4x64x1x1x1 : Shape := ⟨5, ![4, 64, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S4x64x8x32x32, .f32⟩
  | .hbm, ⟨1, _⟩ => ⟨S32x64, .f32⟩
  | .hbm, ⟨2, _⟩ => ⟨S32x64, .f32⟩
  | .hbm, ⟨3, _⟩ => ⟨S64x64, .f32⟩
  | .hbm, ⟨4, _⟩ => ⟨S64, .f32⟩
  | .hbm, ⟨5, _⟩ => ⟨S4x64x8192, .f32⟩
  | .hbm, ⟨6, _⟩ => ⟨S4x8192x64, .f32⟩
  | .hbm, ⟨7, _⟩ => ⟨S4x8192x1x64, .f32⟩
  | .hbm, ⟨8, _⟩ => ⟨S1x1x32x64, .f32⟩
  | .hbm, ⟨9, _⟩ => ⟨S4x8192x32x64, .f32⟩
  | .hbm, ⟨10, _⟩ => ⟨S4x8192x32x64, .f32⟩
  | .hbm, ⟨11, _⟩ => ⟨S4x8192x32x64, .f32⟩
  | .hbm, ⟨12, _⟩ => ⟨S1x1x32x64, .f32⟩
  | .hbm, ⟨13, _⟩ => ⟨S4x8192x32x64, .f32⟩
  | .hbm, ⟨14, _⟩ => ⟨S4x8192x32x64, .f32⟩
  | .hbm, ⟨15, _⟩ => ⟨S4x8192x32x64, .f32⟩
  | .hbm, ⟨16, _⟩ => ⟨S_, .f32⟩
  | .hbm, ⟨17, _⟩ => ⟨S4x8192x64, .f32⟩
  | .hbm, ⟨18, _⟩ => ⟨S_, .f32⟩
  | .hbm, ⟨19, _⟩ => ⟨S4x8192x64, .f32⟩
  | .hbm, ⟨20, _⟩ => ⟨S4x8192x64, .f32⟩
  | .hbm, ⟨21, _⟩ => ⟨S4x8192x1x64, .f32⟩
  | .hbm, ⟨22, _⟩ => ⟨S4x8192x32x64, .f32⟩
  | .hbm, ⟨23, _⟩ => ⟨S4x8192x32x64, .f32⟩
  | .hbm, ⟨24, _⟩ => ⟨S4x8192x32x64, .f32⟩
  | .hbm, ⟨25, _⟩ => ⟨S_, .f32⟩
  | .hbm, ⟨26, _⟩ => ⟨S4x8192x64, .f32⟩
  | .hbm, ⟨27, _⟩ => ⟨S4x8192x1x64, .f32⟩
  | .hbm, ⟨28, _⟩ => ⟨S4x8192x32x64, .f32⟩
  | .hbm, ⟨29, _⟩ => ⟨S4x8192x32x64, .f32⟩
  | .hbm, ⟨30, _⟩ => ⟨S4x8192x32x64, .f32⟩
  | .hbm, ⟨31, _⟩ => ⟨S_, .f32⟩
  | .hbm, ⟨32, _⟩ => ⟨S4x32x64, .f32⟩
  | .hbm, ⟨33, _⟩ => ⟨S_, .f32⟩
  | .hbm, ⟨34, _⟩ => ⟨S4x64, .f32⟩
  | .hbm, ⟨35, _⟩ => ⟨S_, .f32⟩
  | .hbm, ⟨36, _⟩ => ⟨S4x64, .f32⟩
  | .hbm, ⟨37, _⟩ => ⟨S4x64, .f32⟩
  | .hbm, ⟨38, _⟩ => ⟨S64x64, .f32⟩
  | .hbm, ⟨39, _⟩ => ⟨S4x64, .f32⟩
  | .hbm, ⟨40, _⟩ => ⟨S1x64, .f32⟩
  | .hbm, ⟨41, _⟩ => ⟨S4x64, .f32⟩
  | .hbm, ⟨42, _⟩ => ⟨S4x64, .f32⟩
  | .hbm, ⟨43, _⟩ => ⟨S4x64, .f32⟩
  | .hbm, ⟨44, _⟩ => ⟨S4x64, .f32⟩
  | .hbm, ⟨45, _⟩ => ⟨S_, .f32⟩
  | .hbm, ⟨46, _⟩ => ⟨S4x64, .f32⟩
  | .hbm, ⟨47, _⟩ => ⟨S4x64, .f32⟩
  | .hbm, ⟨48, _⟩ => ⟨S_, .f32⟩
  | .hbm, ⟨49, _⟩ => ⟨S4x64, .f32⟩
  | .hbm, ⟨50, _⟩ => ⟨S4x64, .f32⟩
  | .hbm, ⟨51, _⟩ => ⟨S_, .f32⟩
  | .hbm, ⟨52, _⟩ => ⟨S4x8192x64, .f32⟩
  | .hbm, ⟨53, _⟩ => ⟨S4x64x8192, .f32⟩
  | .hbm, ⟨54, _⟩ => ⟨S4x64x8x32x32, .f32⟩
  | .hbm, ⟨55, _⟩ => ⟨S4x64x1x1x1, .f32⟩
  | .hbm, ⟨56, _⟩ => ⟨S4x64x8x32x32, .f32⟩
  | .hbm, ⟨57, _⟩ => ⟨S4x64x8x32x32, .f32⟩
  | .hbm, ⟨58, _⟩ => ⟨S4x64x8x32x32, .f32⟩
  | .hbm, ⟨59, _⟩ => ⟨S_, .f32⟩
  | .hbm, ⟨60, _⟩ => ⟨S4x64x8x32x32, .f32⟩
  | .hbm, ⟨61, _⟩ => ⟨S4x64x8x32x32, .f32⟩
  | _, _ => ⟨S4x64x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call0_cst : Ref sig .tc := ⟨.hbm, 59, rfl⟩
abbrev main_call0_v0 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  shapeCasts_S4x64x8x32x32_S4x64x8192 : S4x64x8x32x32.ShapeCasts S4x64x8192
  transposes_S4x64x8192_S4x8192x64_0_2_1 : S4x64x8192.Transposes [0, 2, 1] S4x8192x64
  bcast_S4x8192x64_S4x8192x1x64_0_1_3 : S4x8192x64.BroadcastsInDim S4x8192x1x64 (![0, 1, 3] : Fin 3 → Fin S4x8192x1x64.rank)
  bcast_S32x64_S1x1x32x64_2_3 : S32x64.BroadcastsInDim S1x1x32x64 (![2, 3] : Fin 2 → Fin S1x1x32x64.rank)
  bcast_S4x8192x1x64_S4x8192x32x64_0_1_2_3 : S4x8192x1x64.BroadcastsInDim S4x8192x32x64 (![0, 1, 2, 3] : Fin 4 → Fin S4x8192x32x64.rank)
  bcast_S1x1x32x64_S4x8192x32x64_0_1_2_3 : S1x1x32x64.BroadcastsInDim S4x8192x32x64 (![0, 1, 2, 3] : Fin 4 → Fin S4x8192x32x64.rank)
  reducesTo_S4x8192x32x64_S4x8192x64_d2 : S4x8192x32x64.ReducesTo [2] S4x8192x64
  h_S_ : 0 < S_.numel
  bcast_S_S4x8192x64 : S_.BroadcastsInDim S4x8192x64 (![] : Fin 0 → Fin S4x8192x64.rank)
  reducesTo_S4x8192x32x64_S4x32x64_d1 : S4x8192x32x64.ReducesTo [1] S4x32x64
  reducesTo_S4x32x64_S4x64_d1 : S4x32x64.ReducesTo [1] S4x64
  bcast_S_S4x64 : S_.BroadcastsInDim S4x64 (![] : Fin 0 → Fin S4x64.rank)
  transposes_S64x64_S64x64_1_0 : S64x64.Transposes [1, 0] S64x64
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  transposes_S4x8192x64_S4x64x8192_0_2_1 : S4x8192x64.Transposes [0, 2, 1] S4x64x8192
  shapeCasts_S4x64x8192_S4x64x8x32x32 : S4x64x8192.ShapeCasts S4x64x8x32x32
  bcast_S4x64_S4x64x1x1x1_0_1 : S4x64.BroadcastsInDim S4x64x1x1x1 (![0, 1] : Fin 2 → Fin S4x64x1x1x1.rank)
  bcast_S4x64x1x1x1_S4x64x8x32x32_0_1_2_3_4 : S4x64x1x1x1.BroadcastsInDim S4x64x8x32x32 (![0, 1, 2, 3, 4] : Fin 5 → Fin S4x64x8x32x32.rank)
  bcast_S_S4x64x8x32x32 : S_.BroadcastsInDim S4x64x8x32x32 (![] : Fin 0 → Fin S4x64x8x32x32.rank)
  dot_S4x64_S64x64_S4x64_1_0_0_1_n_n_wf : DotDims.WF S4x64 S64x64 S4x64 [1] [0] [0] [1] [] []

variable [Facts₀]

def dot_S4x64_S64x64_S4x64_1_0_0_1_n_n : DotDims S4x64 S64x64 S4x64 where
  lhsContracting := [1]
  rhsContracting := [0]
  lhsNonContracting := [0]
  rhsNonContracting := [1]
  lhsBatch := []
  rhsBatch := []
  wf := dot_S4x64_S64x64_S4x64_1_0_0_1_n_n_wf

class Facts : Prop extends Facts₀ where

variable [Facts]
-- ==== Proof.AggRunsBits.lean ====
/-
  The aggregation kernel (the first kernel region) — what its three control cases share.

  The grid is 4 batches by 16 voxel tiles. The body zeroes a [1, 64] accumulator at a batch's first tile, at every
  tile stores the tile's aggregates E into its output block and adds their column sums to the accumulator, and at a
  batch's last tile copies the accumulator into the second output's block. So a point is in one of three cases:
  first tile (reset, no copy), middle tile (neither), last tile (copy, no reset). Stated here: the two conditions
  in closed form over the grid, where the second output is idle, the staging memrefs of a point, the class invariant
  opened at the accumulator, and each input window's block at a point.
-/
import proofs.«175521_j30193620091340_1_alg».proof.Proof.Gen.Kernel.Launch
import proofs.«175521_j30193620091340_1_alg».proof.Proof.Gen.Kernel.Skeleton
import proofs.«175521_j30193620091340_1_alg».proof.Proof.Gen.Kernel.Points
import Idealize.ShloMosaic.Lib.Pipeline.FrameBody
import Idealize.ShloMosaic.Lib.Pipeline.Regions
import Idealize.ShloMosaic.Lib.Pipeline.FrameSuffix
import Idealize.ShloMosaic.Lib.Ring
import Idealize.ShloMosaic.Lib.Tactic

set_option maxRecDepth 16384

noncomputable section

namespace Cert.Kernel.AggRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- "This is the batch's first tile": the reset's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the batch's last tile": the copy's condition. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At a first tile nothing is stored into the second output, and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- Nor at a middle tile. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At a last tile the second output is live. -/
theorem liveAt0_4_C : ∀ t : Fin cfg0.N, ¬cond0_0 (grid0.coords t) → cond0_1 (grid0.coords t) → cfg0.idle 4 (grid0.coords t) = false := by decide +kernel

/-! ## The memrefs of a point -/

abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1x64 .f32 := Memref.whole cc0_scratch0
abbrev VS0_0 : View sig .tc .vmem S1x64 .f32 := scM0_0.view
/-- One staging buffer of each output window, through which its contents are stated. -/
abbrev VO0_3 : View sig .tc .vmem S1x512x64 .f32 := (Memref.whole cc0_stg3_0 : Memref sig .tc .vmem S1x512x64 .f32).view
abbrev VO0_4 : View sig .tc .vmem S1x1x64 .f32 := (Memref.whole cc0_stg4_0 : Memref sig .tc .vmem S1x1x64 .f32).view

/-- The other scoped buffers of the core (the second kernel's staging buffers), each whole at some contents: they ride
    through this region untouched. -/
abbrev Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ Rest6 c) ∗ (∃ r, prngReg c r)) := by
  unfold Pipeline.ΦA; rw [scopedRest0_eq]; simp only [scM0_0, owns_whole]; try rfl

/-! ## The windows' blocks, at the contents `V` the region is entered with -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.AggRegion

end
-- ==== Proof.AggRunABits.lean ====
/-
  The aggregation kernel's body run in ONE control case: a batch's FIRST tile (the accumulator is reset; the second output is left alone).
-/
import proofs.«175521_j30193620091340_1_alg».proof.Proof.AggRunsBits

set_option maxRecDepth 16384

noncomputable section

namespace Cert.Kernel.AggRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the three inputs at their contents, the first output and the accumulator at anything, the second
    output at contents handed back untouched — the body runs to the continuation holding the inputs as they were, the
    first output and the accumulator with the pieces its stores wrote (found by the run). -/
noncomputable def kernelRun0_A (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) :
    Σ' (L3 : List (View.Piece (Elt F) S1x512x64 .f32)) (L4 : List (View.Piece (Elt F) S1x1x64 .f32)), { LS0 : List (View.Piece (Elt F) S1x64 .f32) //
      ∀ (xi4 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, [], ?_, fun xi4 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.AggRegion

end
-- ==== Proof.AggRunBBits.lean ====
/-
  The aggregation kernel's body run in ONE control case: a batch's MIDDLE tile (no reset; the second output is left alone).
-/
import proofs.«175521_j30193620091340_1_alg».proof.Proof.AggRunABits

set_option maxRecDepth 16384

noncomputable section

namespace Cert.Kernel.AggRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- As at a first tile, but the accumulator comes in at the contents the point before left. -/
noncomputable def kernelRun0_B (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) :
    Σ' (L3 : List (View.Piece (Elt F) S1x512x64 .f32)) (L4 : List (View.Piece (Elt F) S1x1x64 .f32)), { LS0 : List (View.Piece (Elt F) S1x64 .f32) //
      ∀ (xi4 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, [], ?_, fun xi4 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.Kernel.AggRegion

end
-- ==== Proof.AggRunCBits.lean ====
/-
  The aggregation kernel's body run in ONE control case: a batch's LAST tile (no reset; the accumulator is copied into the second output).
-/
import proofs.«175521_j30193620091340_1_alg».proof.Proof.AggRunBBits

set_option maxRecDepth 16384

noncomputable section

namespace Cert.Kernel.AggRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator comes in at the contents the point before left; the second output, at anything, ends with the pieces
    its one store wrote. -/
noncomputable def kernelRun0_C (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) :
    Σ' (L3 : List (View.Piece (Elt F) S1x512x64 .f32)) (L4 : List (View.Piece (Elt F) S1x1x64 .f32)), { LS0 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.Kernel.AggRegion

end
-- ==== Proof.AggRegionBits.lean ====
/-
  The aggregation kernel as a region of the program: what its two outputs and its accumulator hold after every grid
  point, the region's proof data, and the body's obligation at every point.

  After point n the accumulator holds what the case of point n stores, run on the point's input blocks and — except at a
  batch's first tile, which resets it — on what point n-1 left in it. The invariant carried between points says exactly
  that; before the first point it says nothing of the accumulator. The first output's block is stored whole at every
  point; the second output's only at a batch's last tile (elsewhere its window is idle and is not written back).
-/
import proofs.«175521_j30193620091340_1_alg».proof.Proof.AggRunCBits

set_option maxRecDepth 16384

noncomputable section

namespace Cert.Kernel.AggRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

/-- At a first tile the stores into the first output tile its block. -/
theorem cover0_A_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) (y : S1x512x64.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x512x64.size (by sl_kernel_rfl) y
/-- What a first tile leaves in the first output's staging buffer. -/
def out0_A_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) : Vec F S1x512x64 .f32 :=
  VO0_3.read (Elt F) (VO0_3.writes (Elt F) VO0_3.junk (kernelRun0_A c i arg2 harg2 arg3 harg3 arg4 harg4 arg5 harg5 arg6 harg6 arg7 harg7 hc0 hc1 x0 x1 x2).1)
/-- What a first tile leaves in the second output's staging buffer (nothing is stored: a placeholder nobody reads, the window being idle there). -/
def out0_A_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) : Vec F S1x1x64 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)
/-- At a first tile the stores into the accumulator tile it. -/
theorem scover0_A_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) (y : S1x64.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x64.size (by sl_kernel_rfl) y
/-- What a first tile leaves in the accumulator. -/
def sout0_A_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) : Vec F S1x64 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- At a middle tile the stores into the first output tile its block. -/
theorem cover0_B_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) (y : S1x512x64.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S1x512x64.size (by sl_kernel_rfl) y
/-- What a middle tile leaves in the first output's staging buffer. -/
def out0_B_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) : Vec F S1x512x64 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
/-- What a middle tile leaves in the second output's staging buffer (nothing is stored: a placeholder nobody reads, the window being idle there). -/
def out0_B_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) : Vec F S1x1x64 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)
/-- At a middle tile the stores into the accumulator tile it. -/
theorem scover0_B_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) (y : S1x64.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S1x64.size (by sl_kernel_rfl) y
/-- What a middle tile leaves in the accumulator. -/
def sout0_B_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) : Vec F S1x64 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- At a last tile the stores into the first output tile its block. -/
theorem cover0_C_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) (y : S1x512x64.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x512x64.size (by sl_kernel_rfl) y
/-- What a last tile leaves in the first output's staging buffer. -/
def out0_C_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) : Vec F S1x512x64 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
/-- At a last tile the store into the second output tiles its block. -/
theorem cover0_C_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) (y : S1x1x64.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x1x64.size (by sl_kernel_rfl) y
/-- What a last tile leaves in the second output's staging buffer. -/
def out0_C_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) : Vec F S1x1x64 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
/-- At a last tile the stores into the accumulator tile it. -/
theorem scover0_C_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) (y : S1x64.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1x64.size (by sl_kernel_rfl) y
/-- What a last tile leaves in the accumulator. -/
def sout0_C_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) : Vec F S1x64 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-! ## The three cases at a grid point: (first output's buffer, second output's buffer, accumulator) -/

def caseA (c : Dev nD) (t : Fin cfg0.N) (hc0 : cond0_0 (grid0.coords t)) (hc1 : ¬cond0_1 (grid0.coords t)) : Vec F S1x512x64 .f32 × Vec F S1x1x64 .f32 × Vec F S1x64 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t))

def caseB (c : Dev nD) (t : Fin cfg0.N) (hc0 : ¬cond0_0 (grid0.coords t)) (hc1 : ¬cond0_1 (grid0.coords t)) (xs0 : Vec F S1x64 .f32) : Vec F S1x512x64 .f32 × Vec F S1x1x64 .f32 × Vec F S1x64 .f32 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0)

def caseC (c : Dev nD) (t : Fin cfg0.N) (hc0 : ¬cond0_0 (grid0.coords t)) (hc1 : cond0_1 (grid0.coords t)) (xs0 : Vec F S1x64 .f32) : Vec F S1x512x64 .f32 × Vec F S1x1x64 .f32 × Vec F S1x64 .f32 :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0)

/-! ## What the outputs and the accumulator hold after each point -/

/-- After the body at position `n`: the case the closed forms select there, on the point's input blocks, the accumulator
    taken (except at a first tile) from what position `n - 1` left. -/
def outsAt0 (c : Dev nD) : (n : ℕ) → n < cfg0.N → Vec F S1x512x64 .f32 × Vec F S1x1x64 .f32 × Vec F S1x64 .f32
  | 0, hn => caseA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        caseA V c ⟨n + 1, hn⟩ ((hcond0_0 ⟨n + 1, hn⟩).mpr h0) (fun h => h1 ((hcond0_1 ⟨n + 1, hn⟩).mp h))
    else
      if h1 : (n + 1) % 16 = 15 then
        caseC V c ⟨n + 1, hn⟩ (fun h => h0 ((hcond0_0 ⟨n + 1, hn⟩).mp h)) ((hcond0_1 ⟨n + 1, hn⟩).mpr h1) (outsAt0 c n (Nat.lt_of_succ_lt hn)).2.2
      else
        caseB V c ⟨n + 1, hn⟩ (fun h => h0 ((hcond0_0 ⟨n + 1, hn⟩).mp h)) (fun h => h1 ((hcond0_1 ⟨n + 1, hn⟩).mp h)) (outsAt0 c n (Nat.lt_of_succ_lt hn)).2.2

theorem outsAt0_A (c : Dev nD) (t : Fin cfg0.N) (h0 : t.val % 16 = 0) (h1 : ¬t.val % 16 = 15) :
    outsAt0 V c t.val t.isLt = caseA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = caseB V c t (fun h => h0 ((hcond0_0 t).mp h)) (fun h => h1 ((hcond0_1 t).mp h)) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = caseC V c t (fun h => h0 ((hcond0_0 t).mp h)) ((hcond0_1 t).mpr h1) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry the class invariant (the accumulator at anything); afterwards the
    accumulator at what the point before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest6 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ Rest6 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest6 c) ∗ (∃ r, prngReg c r)) := by
  cases n with
  | zero => exact absurd rfl hz
  | succ n => rfl

/-! ## The region's proof data -/

/-- The arrays as the region finds them; after the body at point `t` each input's buffer at its block and the outputs'
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the closed forms say which case the point is in; the
    invariant hands the body the accumulator at what the point before left (at anything at the very first point, and at a
    later first tile the named contents are simply forgotten) and takes it back at this point's contents; the second
    output's buffer is handed back untouched where its window is idle. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · by_cases h1 : t.val % 16 = 15
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold caseA out0_A_3 sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
  · by_cases h1 : t.val % 16 = 15
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold caseC out0_C_3 out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold caseB out0_B_3 sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]; · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.AggRegion

end
-- ==== Proof.GateRegionBits.lean ====
/-
  The gating kernel as one pipelined region, at ANY contents V of the core's buffers on entry.

  The region walks a 4 x 4 grid. At point (b, j) it holds three blocks: rows 2048 j ... 2048 j + 2047 of batch b of
  the aggregate array (window 0), the gate row of batch b (window 1, the same block for the four points of a batch),
  and the matching rows of the result (window 2). The body reads the two input blocks whole, computes one pointwise
  value from them and writes it over the whole result block; it also reads the result block before writing it and
  uses nothing of what it read.

  This file states, for every point, what each window's buffer holds when the body starts and when it ends, and
  proves that the body takes the one to the other: the inputs stay as found (their blocks, fetched at this point
  or held over from the point before), and the result buffer ends as the value of the single store laid over it.
-/
import proofs.«175521_j30193620091340_1_alg».proof.Proof.Gen.Kernel.Launch
import proofs.«175521_j30193620091340_1_alg».proof.Proof.Gen.Kernel.Skeleton
import proofs.«175521_j30193620091340_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

-- membership in a rectangle of 2048 rows: one step of structural recursion per row
set_option maxRecDepth 16384

noncomputable section

namespace Cert.Kernel.GateRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks of the three windows -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate window's buffer holds the aggregate block of the point when the body starts, for any proof data
    whose array there is V's and whose body leaves that block in place. The window is whole and never idle. -/
theorem agg_before_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The gate window's buffer holds the gate row of the point's batch when the body starts: fetched at the first
    point of a batch, and at the other three the block index has not moved, so the row held over is still the
    point's. -/
theorem gate_before_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

/-- The whole of a [1, 2048, 64] buffer: what the body reads of the aggregate block and of the result block, and
    what it writes of the result block. -/
abbrev rows : Rect S1x2048x64 := Rect.unit (s := S1x2048x64) ![0, 0, 0] S1x2048x64.size inb_S1x2048x64_S1x2048x64_0_0_0
/-- The whole of the [1, 1, 64] gate row. -/
abbrev row : Rect S1x1x64 := Rect.unit (s := S1x1x64) ![0, 0, 0] S1x1x64.size inb_S1x1x64_S1x1x64_0_0_0

/-- The result buffer after the body, from the aggregate block x and the gate row g: the one store, of the
    pointwise value of x and g, laid over the buffer. -/
def gated (x : Vec F S1x2048x64 .f32) (g : Vec F S1x1x64 .f32) : Vec F S1x2048x64 .f32 :=
  View.canon [⟨rows, k1_pay1 (View.ld x rows) (View.ld g row)⟩]

/-- The one store covers the result buffer. -/
theorem gated_cover (p : Vec F S1x2048x64 .f32) (y : S1x2048x64.Idx) :
    ∃ pc ∈ ([⟨rows, p⟩] : List (View.Piece (Elt F) S1x2048x64 .f32)), y ∈ pc.1.set :=
  View.cover_of_tiled [⟨rows, p⟩] S1x2048x64.size (by rfl) y

/-! ## The body's triple -/

set_option maxHeartbeats 1000000 in
/-- The body on three whole buffers, the first two reading x and g and the third holding anything, runs to the
    continuation with the first two as they were and the third at gated x g. -/
theorem sound_kernel (c : Dev nD) (E : Set ℕ) (i : grid1.Coords) (arg2 : Memref sig .tc .vmem S1x2048x64 .f32) (harg2 : arg2.IsWhole)
    (arg3 : Memref sig .tc .vmem S1x1x64 .f32) (harg3 : arg3.IsWhole) (arg4 : Memref sig .tc .vmem S1x2048x64 .f32) (harg4 : arg4.IsWhole)
    (x : Vec F S1x2048x64 .f32) (g : Vec F S1x1x64 .f32) (K : PUnit → sProp 𝕄) :
    iprop(owns (c : Thread nD τ) arg2 fullShare x ∗ owns (c : Thread nD τ) arg3 fullShare g ∗ (∃ d, owns (c : Thread nD τ) arg4 fullShare d)
        ∗ (iprop(owns (c : Thread nD τ) arg2 fullShare x ∗ owns (c : Thread nD τ) arg3 fullShare g ∗ owns (c : Thread nD τ) arg4 fullShare (gated x g)) -∗ K ⟨⟩))
      ⊢ wp frame (wpE (defs₀ (F := F)) Variants.none c none) E (cc1__kernel2 i arg2 harg2 arg3 harg3 arg4 harg4) K := by
  simp only [cc1__kernel2_eq_skeleton]; unfold cc1__kernel2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gated_cover _)

/-! ## The proof data of the region -/

/-- On core c: the arrays as the region finds them; after the body at point t the two input buffers at their
    blocks and the result buffer at gated of the two blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => gated (blk V c 0 t) (blk V c 1 t)
  Φ _ := Pipeline.ΦA spec1 c
  q _ := fullShare
  owed _ := 0

/-- The arrays of the proof data are the contents on entry. -/
theorem A_eq1 (c : Dev nD) (w : Fin cfg1.W) : (dat1 V c).A w = V c (Pipeline.arrRef spec1 w) := by
  dsimp only [dat1]

/-- What the body leaves, window by window. -/
theorem after_agg (c : Dev nD) (t : Fin cfg1.N) : (dat1 V c).after 0 t = blk V c 0 t := by dsimp only [dat1]
theorem after_gate (c : Dev nD) (t : Fin cfg1.N) : (dat1 V c).after 1 t = blk V c 1 t := by dsimp only [dat1]
theorem after_out (c : Dev nD) (t : Fin cfg1.N) : (dat1 V c).after 2 t = gated (blk V c 0 t) (blk V c 1 t) := by dsimp only [dat1]

/-- What the body finds in the two input buffers at every point. -/
theorem before_agg (c : Dev nD) (t : Fin cfg1.N) (d) : (dat1 V c).before 0 t d = blk V c 0 t :=
  agg_before_of V (dat1 V c) (A_eq1 V c 0) (after_agg V c) t d
theorem before_gate (c : Dev nD) (t : Fin cfg1.N) (d) : (dat1 V c).before 1 t d = blk V c 1 t :=
  gate_before_of V (dat1 V c) (A_eq1 V c 1) (after_gate V c) t d

/-! ## The body at a generic point -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_gate]
  rw [show (dat1 V c).Φ t.succ = (dat1 V c).Φ t.castSucc from rfl,
    show (dat1 V c).owesAt () t.succ = (dat1 V c).owesAt () t.castSucc from rfl,
    after_agg, after_gate, after_out]
  iintro ⟨HΦ, Ho, ⟨%d0, H0⟩, ⟨%d1, H1⟩, ⟨%d2, H2⟩⟩
  iapply (sound_kernel c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body V c t

end Cert.Kernel.GateRegion

end
-- ==== Proof.WholeBits.lean ====
/-
  The whole program as five segments — host operations, the aggregation kernel, host operations, the gating kernel,
  host operations — run from the launch to the return.

  The buffer contents at each segment boundary are a fold from the launch memory: a stretch of host operations applies
  them in order; a kernel region leaves each of its windows' arrays at what its write-backs make of it and every other
  buffer as it found it. Every weakly fair execution terminates, nothing faults, and at the end every unscoped buffer
  holds the last fold's contents. In particular no argument array has changed: no host operation writes one and no
  region writes an input's array.
-/
import proofs.«175521_j30193620091340_1_alg».proof.Proof.AggRegionBits
import proofs.«175521_j30193620091340_1_alg».proof.Proof.GateRegionBits
import proofs.«175521_j30193620091340_1_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the first host stretch (the aggregation kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the aggregation kernel's exit: its arrays at what the pipeline leaves, every other buffer as entered. -/
def W2 (c : Dev nD) : Valuation τ sig (Elt F) :=
  Pipeline.withArrays spec0 c (W1 m c) fun w => (AggRegion.dat0 (V1 m) c).arrAt w cfg0.N
theorem W2_arr (c : Dev nD) (w : Fin cfg0.W) :
    W2 m c (Proc.devRef .tc (Pipeline.arrRef spec0 w)) = (AggRegion.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (AggRegion.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the gating kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the gating kernel's exit. -/
def W4 (c : Dev nD) : Valuation τ sig (Elt F) :=
  Pipeline.withArrays spec1 c (W3 m c) fun w => (GateRegion.dat1 (V3 m) c).arrAt w cfg1.N
theorem W4_arr (c : Dev nD) (w : Fin cfg1.W) :
    W4 m c (Proc.devRef .tc (Pipeline.arrRef spec1 w)) = (GateRegion.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (GateRegion.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch (the return). -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 1).trans (((AggRegion.dat0 (V1 m) c).arrAt_in 1 rfl _).trans (AggRegion.A_eq0 (V1 m) c 1))
    _ = W0 m c (Proc.devRef .tc main_arg1) := StableHlo.after_of_writes_sub hostOps0 _ hostOps0_writes (r := main_arg1) (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 2).trans (((AggRegion.dat0 (V1 m) c).arrAt_in 2 rfl _).trans (AggRegion.A_eq0 (V1 m) c 2))
    _ = W0 m c (Proc.devRef .tc main_arg2) := StableHlo.after_of_writes_sub hostOps0 _ hostOps0_writes (r := main_arg2) (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => AggRegion.dat0 (V1 m) c
  | ⟨1, _⟩ => fun c => GateRegion.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The aggregation kernel's region: entered from every unscoped buffer at `W1`, left at `W2`. The generator register goes
    into the invariant and comes back; the accumulator is in the scoped rest on both sides. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (AggRegion.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := AggRegion.hin0 (V1 m) c
    unfold Pipeline.ΦA at h
    rw [show (pdats m 0 c).Φ 0 = (AggRegion.dat0 (V1 m) c).Φ 0 from rfl]
    iintro ⟨Hp, -, Hr⟩
    iapply h
    isplitl [Hr]; · iexact Hr
    iexact Hp
  hout c := by
    rw [Pipeline.ownSems0_none]
    have h := AggRegion.hout0 (V1 m) c
    unfold Pipeline.ΦA at h
    rw [show (pdats m 0 c).Φ (Fin.last _) = (AggRegion.dat0 (V1 m) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gating kernel's region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (GateRegion.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Whole

end
-- ==== Proof.AggRuns.lean ====
/-
  The aggregation kernel (the first kernel region) — what its three control cases share.

  The grid is 4 batches by 16 voxel tiles. The body zeroes a [1, 64] accumulator at a batch's first tile, at every
  tile stores the tile's aggregates E into its output block and adds their column sums to the accumulator, and at a
  batch's last tile copies the accumulator into the second output's block. So a point is in one of three cases:
  first tile (reset, no copy), middle tile (neither), last tile (copy, no reset). Stated here: the two conditions
  in closed form over the grid, where the second output is idle, the staging memrefs of a point, the class invariant
  opened at the accumulator, and each input window's block at a point.
-/
import proofs.«175521_j30193620091340_1_alg».proof.Proof.Gen.KernelIdeal.Launch
import proofs.«175521_j30193620091340_1_alg».proof.Proof.Gen.KernelIdeal.Skeleton
import proofs.«175521_j30193620091340_1_alg».proof.Proof.Gen.KernelIdeal.Points
import Idealize.ShloMosaic.Lib.Pipeline.FrameBody
import Idealize.ShloMosaic.Lib.Pipeline.Regions
import Idealize.ShloMosaic.Lib.Pipeline.FrameSuffix
import Idealize.ShloMosaic.Lib.Ring
import Idealize.ShloMosaic.Lib.Tactic

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- "This is the batch's first tile": the reset's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the batch's last tile": the copy's condition. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At a first tile nothing is stored into the second output, and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- Nor at a middle tile. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
/-- At a last tile the second output is live. -/
theorem liveAt0_4_C : ∀ t : Fin cfg0.N, ¬cond0_0 (grid0.coords t) → cond0_1 (grid0.coords t) → cfg0.idle 4 (grid0.coords t) = false := by decide +kernel

/-! ## The memrefs of a point -/

abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1x64 .f32 := Memref.whole cc0_scratch0
abbrev VS0_0 : View sig .tc .vmem S1x64 .f32 := scM0_0.view
/-- One staging buffer of each output window, through which its contents are stated. -/
abbrev VO0_3 : View sig .tc .vmem S1x512x64 .f32 := (Memref.whole cc0_stg3_0 : Memref sig .tc .vmem S1x512x64 .f32).view
abbrev VO0_4 : View sig .tc .vmem S1x1x64 .f32 := (Memref.whole cc0_stg4_0 : Memref sig .tc .vmem S1x1x64 .f32).view

/-- The other scoped buffers of the core (the second kernel's staging buffers), each whole at some contents: they ride
    through this region untouched. -/
abbrev Rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ Rest6 c) ∗ (∃ r, prngReg c r)) := by
  unfold Pipeline.ΦA; rw [scopedRest0_eq]; simp only [scM0_0, owns_whole]; try rfl

/-! ## The windows' blocks, at the contents `V` the region is entered with -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.AggRegion

end
-- ==== Proof.AggRunA.lean ====
/-
  The aggregation kernel's body run in ONE control case: a batch's FIRST tile (the accumulator is reset; the second output is left alone).
-/
import proofs.«175521_j30193620091340_1_alg».proof.Proof.AggRuns

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the three inputs at their contents, the first output and the accumulator at anything, the second
    output at contents handed back untouched — the body runs to the continuation holding the inputs as they were, the
    first output and the accumulator with the pieces its stores wrote (found by the run). -/
noncomputable def kernelRun0_A (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) :
    Σ' (L3 : List (View.Piece (Elt F) S1x512x64 .f32)) (L4 : List (View.Piece (Elt F) S1x1x64 .f32)), { LS0 : List (View.Piece (Elt F) S1x64 .f32) //
      ∀ (xi4 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, [], ?_, fun xi4 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.AggRegion

end
-- ==== Proof.AggRunB.lean ====
/-
  The aggregation kernel's body run in ONE control case: a batch's MIDDLE tile (no reset; the second output is left alone).
-/
import proofs.«175521_j30193620091340_1_alg».proof.Proof.AggRunA

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- As at a first tile, but the accumulator comes in at the contents the point before left. -/
noncomputable def kernelRun0_B (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) :
    Σ' (L3 : List (View.Piece (Elt F) S1x512x64 .f32)) (L4 : List (View.Piece (Elt F) S1x1x64 .f32)), { LS0 : List (View.Piece (Elt F) S1x64 .f32) //
      ∀ (xi4 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, [], ?_, fun xi4 E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; iexact HS0

end Cert.KernelIdeal.AggRegion

end
-- ==== Proof.AggRunC.lean ====
/-
  The aggregation kernel's body run in ONE control case: a batch's LAST tile (no reset; the accumulator is copied into the second output).
-/
import proofs.«175521_j30193620091340_1_alg».proof.Proof.AggRunB

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator comes in at the contents the point before left; the second output, at anything, ends with the pieces
    its one store wrote. -/
noncomputable def kernelRun0_C (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) :
    Σ' (L3 : List (View.Piece (Elt F) S1x512x64 .f32)) (L4 : List (View.Piece (Elt F) S1x1x64 .f32)), { LS0 : List (View.Piece (Elt F) S1x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel1 i arg2 harg2 arg3 harg3 arg4 harg4 arg5 harg5 arg6 harg6 arg7 harg7) K } := by
  refine ⟨?_, ?_, ?_, fun E K => ?run⟩
  case run =>
    simp only [cc0__kernel1_eq_skeleton]; unfold cc0__kernel1_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

end Cert.KernelIdeal.AggRegion

end
-- ==== Proof.AggRegion.lean ====
/-
  The aggregation kernel as a region of the program: what its two outputs and its accumulator hold after every grid
  point, the region's proof data, and the body's obligation at every point.

  After point n the accumulator holds what the case of point n stores, run on the point's input blocks and — except at a
  batch's first tile, which resets it — on what point n-1 left in it. The invariant carried between points says exactly
  that; before the first point it says nothing of the accumulator. The first output's block is stored whole at every
  point; the second output's only at a batch's last tile (elsewhere its window is idle and is not written back).
-/
import proofs.«175521_j30193620091340_1_alg».proof.Proof.AggRunC

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

/-- At a first tile the stores into the first output tile its block. -/
theorem cover0_A_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) (y : S1x512x64.Idx) :
    ∃ pc ∈ (kernelRun0_A c i arg2 harg2 arg3 harg3 arg4 harg4 arg5 harg5 arg6 harg6 arg7 harg7 hc0 hc1 x0 x1 x2).1, y ∈ pc.1.set :=
  View.cover_of_tiledL (kernelRun0_A c i arg2 harg2 arg3 harg3 arg4 harg4 arg5 harg5 arg6 harg6 arg7 harg7 hc0 hc1 x0 x1 x2).1 S1x512x64.size (by sl_kernel_rfl) y
/-- What a first tile leaves in the first output's staging buffer. -/
def out0_A_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) : Vec F S1x512x64 .f32 :=
  VO0_3.read (Elt F) (VO0_3.writes (Elt F) VO0_3.junk (kernelRun0_A c i arg2 harg2 arg3 harg3 arg4 harg4 arg5 harg5 arg6 harg6 arg7 harg7 hc0 hc1 x0 x1 x2).1)
/-- What a first tile leaves in the second output's staging buffer (nothing is stored: a placeholder nobody reads, the window being idle there). -/
def out0_A_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) : Vec F S1x1x64 .f32 :=
  VO0_4.read (Elt F) (VO0_4.writes (Elt F) VO0_4.junk (kernelRun0_A c i arg2 harg2 arg3 harg3 arg4 harg4 arg5 harg5 arg6 harg6 arg7 harg7 hc0 hc1 x0 x1 x2).2.1)
/-- At a first tile the stores into the accumulator tile it. -/
theorem scover0_A_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) (y : S1x64.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1x64.size (by sl_kernel_rfl) y
/-- What a first tile leaves in the accumulator. -/
def sout0_A_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) : Vec F S1x64 .f32 :=
  VS0_0.read (Elt F) (VS0_0.writes (Elt F) VS0_0.junk (kernelRun0_A c i arg2 harg2 arg3 harg3 arg4 harg4 arg5 harg5 arg6 harg6 arg7 harg7 hc0 hc1 x0 x1 x2).2.2.1)

/-- At a middle tile the stores into the first output tile its block. -/
theorem cover0_B_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) (y : S1x512x64.Idx) :
    ∃ pc ∈ (kernelRun0_B c i arg2 harg2 arg3 harg3 arg4 harg4 arg5 harg5 arg6 harg6 arg7 harg7 hc0 hc1 x0 x1 x2 xs0).1, y ∈ pc.1.set :=
  View.cover_of_tiledL (kernelRun0_B c i arg2 harg2 arg3 harg3 arg4 harg4 arg5 harg5 arg6 harg6 arg7 harg7 hc0 hc1 x0 x1 x2 xs0).1 S1x512x64.size (by sl_kernel_rfl) y
/-- What a middle tile leaves in the first output's staging buffer. -/
def out0_B_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) : Vec F S1x512x64 .f32 :=
  VO0_3.read (Elt F) (VO0_3.writes (Elt F) VO0_3.junk (kernelRun0_B c i arg2 harg2 arg3 harg3 arg4 harg4 arg5 harg5 arg6 harg6 arg7 harg7 hc0 hc1 x0 x1 x2 xs0).1)
/-- What a middle tile leaves in the second output's staging buffer (nothing is stored: a placeholder nobody reads, the window being idle there). -/
def out0_B_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) : Vec F S1x1x64 .f32 :=
  VO0_4.read (Elt F) (VO0_4.writes (Elt F) VO0_4.junk (kernelRun0_B c i arg2 harg2 arg3 harg3 arg4 harg4 arg5 harg5 arg6 harg6 arg7 harg7 hc0 hc1 x0 x1 x2 xs0).2.1)
/-- At a middle tile the stores into the accumulator tile it. -/
theorem scover0_B_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) (y : S1x64.Idx) :
    ∃ pc ∈ (kernelRun0_B c i arg2 harg2 arg3 harg3 arg4 harg4 arg5 harg5 arg6 harg6 arg7 harg7 hc0 hc1 x0 x1 x2 xs0).2.2.1, y ∈ pc.1.set :=
  View.cover_of_tiledL (kernelRun0_B c i arg2 harg2 arg3 harg3 arg4 harg4 arg5 harg5 arg6 harg6 arg7 harg7 hc0 hc1 x0 x1 x2 xs0).2.2.1 S1x64.size (by sl_kernel_rfl) y
/-- What a middle tile leaves in the accumulator. -/
def sout0_B_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) : Vec F S1x64 .f32 :=
  VS0_0.read (Elt F) (VS0_0.writes (Elt F) VS0_0.junk (kernelRun0_B c i arg2 harg2 arg3 harg3 arg4 harg4 arg5 harg5 arg6 harg6 arg7 harg7 hc0 hc1 x0 x1 x2 xs0).2.2.1)

/-- At a last tile the stores into the first output tile its block. -/
theorem cover0_C_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) (y : S1x512x64.Idx) :
    ∃ pc ∈ (kernelRun0_C c i arg2 harg2 arg3 harg3 arg4 harg4 arg5 harg5 arg6 harg6 arg7 harg7 hc0 hc1 x0 x1 x2 xs0).1, y ∈ pc.1.set :=
  View.cover_of_tiledL (kernelRun0_C c i arg2 harg2 arg3 harg3 arg4 harg4 arg5 harg5 arg6 harg6 arg7 harg7 hc0 hc1 x0 x1 x2 xs0).1 S1x512x64.size (by sl_kernel_rfl) y
/-- What a last tile leaves in the first output's staging buffer. -/
def out0_C_3 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) : Vec F S1x512x64 .f32 :=
  VO0_3.read (Elt F) (VO0_3.writes (Elt F) VO0_3.junk (kernelRun0_C c i arg2 harg2 arg3 harg3 arg4 harg4 arg5 harg5 arg6 harg6 arg7 harg7 hc0 hc1 x0 x1 x2 xs0).1)
/-- At a last tile the store into the second output tiles its block. -/
theorem cover0_C_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) (y : S1x1x64.Idx) :
    ∃ pc ∈ (kernelRun0_C c i arg2 harg2 arg3 harg3 arg4 harg4 arg5 harg5 arg6 harg6 arg7 harg7 hc0 hc1 x0 x1 x2 xs0).2.1, y ∈ pc.1.set :=
  View.cover_of_tiledL (kernelRun0_C c i arg2 harg2 arg3 harg3 arg4 harg4 arg5 harg5 arg6 harg6 arg7 harg7 hc0 hc1 x0 x1 x2 xs0).2.1 S1x1x64.size (by sl_kernel_rfl) y
/-- What a last tile leaves in the second output's staging buffer. -/
def out0_C_4 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) : Vec F S1x1x64 .f32 :=
  VO0_4.read (Elt F) (VO0_4.writes (Elt F) VO0_4.junk (kernelRun0_C c i arg2 harg2 arg3 harg3 arg4 harg4 arg5 harg5 arg6 harg6 arg7 harg7 hc0 hc1 x0 x1 x2 xs0).2.1)
/-- At a last tile the stores into the accumulator tile it. -/
theorem scover0_C_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) (y : S1x64.Idx) :
    ∃ pc ∈ (kernelRun0_C c i arg2 harg2 arg3 harg3 arg4 harg4 arg5 harg5 arg6 harg6 arg7 harg7 hc0 hc1 x0 x1 x2 xs0).2.2.1, y ∈ pc.1.set :=
  View.cover_of_tiledL (kernelRun0_C c i arg2 harg2 arg3 harg3 arg4 harg4 arg5 harg5 arg6 harg6 arg7 harg7 hc0 hc1 x0 x1 x2 xs0).2.2.1 S1x64.size (by sl_kernel_rfl) y
/-- What a last tile leaves in the accumulator. -/
def sout0_C_0 (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) : Vec F S1x64 .f32 :=
  VS0_0.read (Elt F) (VS0_0.writes (Elt F) VS0_0.junk (kernelRun0_C c i arg2 harg2 arg3 harg3 arg4 harg4 arg5 harg5 arg6 harg6 arg7 harg7 hc0 hc1 x0 x1 x2 xs0).2.2.1)

/-! ## The three cases at a grid point: (first output's buffer, second output's buffer, accumulator) -/

def caseA (c : Dev nD) (t : Fin cfg0.N) (hc0 : cond0_0 (grid0.coords t)) (hc1 : ¬cond0_1 (grid0.coords t)) : Vec F S1x512x64 .f32 × Vec F S1x1x64 .f32 × Vec F S1x64 .f32 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t))

def caseB (c : Dev nD) (t : Fin cfg0.N) (hc0 : ¬cond0_0 (grid0.coords t)) (hc1 : ¬cond0_1 (grid0.coords t)) (xs0 : Vec F S1x64 .f32) : Vec F S1x512x64 .f32 × Vec F S1x1x64 .f32 × Vec F S1x64 .f32 :=
  (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0)

def caseC (c : Dev nD) (t : Fin cfg0.N) (hc0 : ¬cond0_0 (grid0.coords t)) (hc1 : cond0_1 (grid0.coords t)) (xs0 : Vec F S1x64 .f32) : Vec F S1x512x64 .f32 × Vec F S1x1x64 .f32 × Vec F S1x64 .f32 :=
  (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk0 V c 0 t) (iblk0 V c 1 t) (iblk0 V c 2 t) xs0)

/-! ## What the outputs and the accumulator hold after each point -/

/-- After the body at position `n`: the case the closed forms select there, on the point's input blocks, the accumulator
    taken (except at a first tile) from what position `n - 1` left. -/
def outsAt0 (c : Dev nD) : (n : ℕ) → n < cfg0.N → Vec F S1x512x64 .f32 × Vec F S1x1x64 .f32 × Vec F S1x64 .f32
  | 0, hn => caseA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        caseA V c ⟨n + 1, hn⟩ ((hcond0_0 ⟨n + 1, hn⟩).mpr h0) (fun h => h1 ((hcond0_1 ⟨n + 1, hn⟩).mp h))
    else
      if h1 : (n + 1) % 16 = 15 then
        caseC V c ⟨n + 1, hn⟩ (fun h => h0 ((hcond0_0 ⟨n + 1, hn⟩).mp h)) ((hcond0_1 ⟨n + 1, hn⟩).mpr h1) (outsAt0 c n (Nat.lt_of_succ_lt hn)).2.2
      else
        caseB V c ⟨n + 1, hn⟩ (fun h => h0 ((hcond0_0 ⟨n + 1, hn⟩).mp h)) (fun h => h1 ((hcond0_1 ⟨n + 1, hn⟩).mp h)) (outsAt0 c n (Nat.lt_of_succ_lt hn)).2.2

theorem outsAt0_A (c : Dev nD) (t : Fin cfg0.N) (h0 : t.val % 16 = 0) (h1 : ¬t.val % 16 = 15) :
    outsAt0 V c t.val t.isLt = caseA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = caseB V c t (fun h => h0 ((hcond0_0 t).mp h)) (fun h => h1 ((hcond0_1 t).mp h)) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = caseC V c t (fun h => h0 ((hcond0_0 t).mp h)) ((hcond0_1 t).mpr h1) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's entry the class invariant (the accumulator at anything); afterwards the
    accumulator at what the point before left, the other scoped buffers and the generator register at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest6 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ Rest6 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest6 c) ∗ (∃ r, prngReg c r)) := by
  cases n with
  | zero => exact absurd rfl hz
  | succ n => rfl

/-! ## The region's proof data -/

/-- The arrays as the region finds them; after the body at point `t` each input's buffer at its block and the outputs'
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the closed forms say which case the point is in; the
    invariant hands the body the accumulator at what the point before left (at anything at the very first point, and at a
    later first tile the named contents are simply forgotten) and takes it back at this point's contents; the second
    output's buffer is handed back untouched where its window is idle. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · by_cases h1 : t.val % 16 = 15
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold caseA out0_A_3 sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexists _; iexact H3
        isplitl [H4]; · iexact H4
        isplitl [HS0]; · iexists _; iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_A_3 c _ _ _ _ _ _ _ _ _ _ _ _ _ _ _ _ _ _)
        iexists _; iexact H4
  · by_cases h1 : t.val % 16 = 15
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold caseC out0_C_3 out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold caseB out0_B_3 sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _).2.2.2 _ Set.univ _)
        isplitl [H0]; · iexact H0
        isplitl [H1]; · iexact H1
        isplitl [H2]; · iexact H2
        isplitl [H3]; · iexists _; iexact H3
        isplitl [H4]; · iexact H4
        isplitl [HS0]; · iexact HS0
        iintro ⟨H0, H1, H2, ⟨%e3, H3⟩, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_B_3 c _ _ _ _ _ _ _ _ _ _ _ _ _ _ _ _ _ _ _)
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]; · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.AggRegion

end
-- ==== Proof.GateRegion.lean ====
/-
  The gating kernel as one pipelined region, at ANY contents V of the core's buffers on entry.

  The region walks a 4 x 4 grid. At point (b, j) it holds three blocks: rows 2048 j ... 2048 j + 2047 of batch b of
  the aggregate array (window 0), the gate row of batch b (window 1, the same block for the four points of a batch),
  and the matching rows of the result (window 2). The body reads the two input blocks whole, computes one pointwise
  value from them and writes it over the whole result block; it also reads the result block before writing it and
  uses nothing of what it read.

  This file states, for every point, what each window's buffer holds when the body starts and when it ends, and
  proves that the body takes the one to the other: the inputs stay as found (their blocks, fetched at this point
  or held over from the point before), and the result buffer ends as the value of the single store laid over it.
-/
import proofs.«175521_j30193620091340_1_alg».proof.Proof.Gen.KernelIdeal.Launch
import proofs.«175521_j30193620091340_1_alg».proof.Proof.Gen.KernelIdeal.Skeleton
import proofs.«175521_j30193620091340_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

-- membership in a rectangle of 2048 rows: one step of structural recursion per row
set_option maxRecDepth 16384

noncomputable section

namespace Cert.KernelIdeal.GateRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks of the three windows -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate window's buffer holds the aggregate block of the point when the body starts, for any proof data
    whose array there is V's and whose body leaves that block in place. The window is whole and never idle. -/
theorem agg_before_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The gate window's buffer holds the gate row of the point's batch when the body starts: fetched at the first
    point of a batch, and at the other three the block index has not moved, so the row held over is still the
    point's. -/
theorem gate_before_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

/-- The whole of a [1, 2048, 64] buffer: what the body reads of the aggregate block and of the result block, and
    what it writes of the result block. -/
abbrev rows : Rect S1x2048x64 := Rect.unit (s := S1x2048x64) ![0, 0, 0] S1x2048x64.size inb_S1x2048x64_S1x2048x64_0_0_0
/-- The whole of the [1, 1, 64] gate row. -/
abbrev row : Rect S1x1x64 := Rect.unit (s := S1x1x64) ![0, 0, 0] S1x1x64.size inb_S1x1x64_S1x1x64_0_0_0

/-- The result buffer after the body, from the aggregate block x and the gate row g: the one store, of the
    pointwise value of x and g, laid over the buffer. -/
def gated (x : Vec F S1x2048x64 .f32) (g : Vec F S1x1x64 .f32) : Vec F S1x2048x64 .f32 :=
  View.canon [⟨rows, k1_pay1 (View.ld x rows) (View.ld g row)⟩]

/-- The one store covers the result buffer. -/
theorem gated_cover (p : Vec F S1x2048x64 .f32) (y : S1x2048x64.Idx) :
    ∃ pc ∈ ([⟨rows, p⟩] : List (View.Piece (Elt F) S1x2048x64 .f32)), y ∈ pc.1.set :=
  View.cover_of_tiled [⟨rows, p⟩] S1x2048x64.size (by rfl) y

/-! ## The body's triple -/

set_option maxHeartbeats 1000000 in
/-- The body on three whole buffers, the first two reading x and g and the third holding anything, runs to the
    continuation with the first two as they were and the third at gated x g. -/
theorem sound_kernel (c : Dev nD) (E : Set ℕ) (i : grid1.Coords) (arg2 : Memref sig .tc .vmem S1x2048x64 .f32) (harg2 : arg2.IsWhole)
    (arg3 : Memref sig .tc .vmem S1x1x64 .f32) (harg3 : arg3.IsWhole) (arg4 : Memref sig .tc .vmem S1x2048x64 .f32) (harg4 : arg4.IsWhole)
    (x : Vec F S1x2048x64 .f32) (g : Vec F S1x1x64 .f32) (K : PUnit → sProp 𝕄) :
    iprop(owns (c : Thread nD τ) arg2 fullShare x ∗ owns (c : Thread nD τ) arg3 fullShare g ∗ (∃ d, owns (c : Thread nD τ) arg4 fullShare d)
        ∗ (iprop(owns (c : Thread nD τ) arg2 fullShare x ∗ owns (c : Thread nD τ) arg3 fullShare g ∗ owns (c : Thread nD τ) arg4 fullShare (gated x g)) -∗ K ⟨⟩))
      ⊢ wp frame (wpE (defs₀ (F := F)) Variants.none c none) E (cc1__kernel2 i arg2 harg2 arg3 harg3 arg4 harg4) K := by
  simp only [cc1__kernel2_eq_skeleton]; unfold cc1__kernel2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gated_cover _)

/-! ## The proof data of the region -/

/-- On core c: the arrays as the region finds them; after the body at point t the two input buffers at their
    blocks and the result buffer at gated of the two blocks; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => gated (blk V c 0 t) (blk V c 1 t)
  Φ _ := Pipeline.ΦA spec1 c
  q _ := fullShare
  owed _ := 0

/-- The arrays of the proof data are the contents on entry. -/
theorem A_eq1 (c : Dev nD) (w : Fin cfg1.W) : (dat1 V c).A w = V c (Pipeline.arrRef spec1 w) := by
  dsimp only [dat1]

/-- What the body leaves, window by window. -/
theorem after_agg (c : Dev nD) (t : Fin cfg1.N) : (dat1 V c).after 0 t = blk V c 0 t := by dsimp only [dat1]
theorem after_gate (c : Dev nD) (t : Fin cfg1.N) : (dat1 V c).after 1 t = blk V c 1 t := by dsimp only [dat1]
theorem after_out (c : Dev nD) (t : Fin cfg1.N) : (dat1 V c).after 2 t = gated (blk V c 0 t) (blk V c 1 t) := by dsimp only [dat1]

/-- What the body finds in the two input buffers at every point. -/
theorem before_agg (c : Dev nD) (t : Fin cfg1.N) (d) : (dat1 V c).before 0 t d = blk V c 0 t :=
  agg_before_of V (dat1 V c) (A_eq1 V c 0) (after_agg V c) t d
theorem before_gate (c : Dev nD) (t : Fin cfg1.N) (d) : (dat1 V c).before 1 t d = blk V c 1 t :=
  gate_before_of V (dat1 V c) (A_eq1 V c 1) (after_gate V c) t d

/-! ## The body at a generic point -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and
    what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_agg, before_gate]
  rw [show (dat1 V c).Φ t.succ = (dat1 V c).Φ t.castSucc from rfl,
    show (dat1 V c).owesAt () t.succ = (dat1 V c).owesAt () t.castSucc from rfl,
    after_agg, after_gate, after_out]
  iintro ⟨HΦ, Ho, ⟨%d0, H0⟩, ⟨%d1, H1⟩, ⟨%d2, H2⟩⟩
  iapply (sound_kernel c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) : BodyObligation (dat1 (F := F) V c) (defs₀ (F := F)) Variants.none () Set.univ := fun t => by
  rw [bigSep_W1, bigSep_W1]
  exact sound_body V c t

end Cert.KernelIdeal.GateRegion

end
-- ==== Proof.Whole.lean ====
/-
  The whole program as five segments — host operations, the aggregation kernel, host operations, the gating kernel,
  host operations — run from the launch to the return.

  The buffer contents at each segment boundary are a fold from the launch memory: a stretch of host operations applies
  them in order; a kernel region leaves each of its windows' arrays at what its write-backs make of it and every other
  buffer as it found it. Every weakly fair execution terminates, nothing faults, and at the end every unscoped buffer
  holds the last fold's contents. In particular no argument array has changed: no host operation writes one and no
  region writes an input's array.
-/
import proofs.«175521_j30193620091340_1_alg».proof.Proof.AggRegion
import proofs.«175521_j30193620091340_1_alg».proof.Proof.GateRegion
import proofs.«175521_j30193620091340_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m ((c : Dev nD), b)
/-- After the first host stretch (the aggregation kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the aggregation kernel's exit: its arrays at what the pipeline leaves, every other buffer as entered. -/
def W2 (c : Dev nD) : Valuation τ sig (Elt F) :=
  Pipeline.withArrays spec0 c (W1 m c) fun w => (AggRegion.dat0 (V1 m) c).arrAt w cfg0.N
theorem W2_arr (c : Dev nD) (w : Fin cfg0.W) :
    W2 m c (Proc.devRef .tc (Pipeline.arrRef spec0 w)) = (AggRegion.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (AggRegion.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the gating kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the gating kernel's exit. -/
def W4 (c : Dev nD) : Valuation τ sig (Elt F) :=
  Pipeline.withArrays spec1 c (W3 m c) fun w => (GateRegion.dat1 (V3 m) c).arrAt w cfg1.N
theorem W4_arr (c : Dev nD) (w : Fin cfg1.W) :
    W4 m c (Proc.devRef .tc (Pipeline.arrRef spec1 w)) = (GateRegion.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (GateRegion.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host stretch (the return). -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 1).trans (((AggRegion.dat0 (V1 m) c).arrAt_in 1 rfl _).trans (AggRegion.A_eq0 (V1 m) c 1))
    _ = W0 m c (Proc.devRef .tc main_arg1) := StableHlo.after_of_writes_sub hostOps0 _ hostOps0_writes (r := main_arg1) (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 2).trans (((AggRegion.dat0 (V1 m) c).arrAt_in 2 rfl _).trans (AggRegion.A_eq0 (V1 m) c 2))
    _ = W0 m c (Proc.devRef .tc main_arg2) := StableHlo.after_of_writes_sub hostOps0 _ hostOps0_writes (r := main_arg2) (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => AggRegion.dat0 (V1 m) c
  | ⟨1, _⟩ => fun c => GateRegion.dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- The aggregation kernel's region: entered from every unscoped buffer at `W1`, left at `W2`. The generator register goes
    into the invariant and comes back; the accumulator is in the scoped rest on both sides. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (AggRegion.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := AggRegion.hin0 (V1 m) c
    unfold Pipeline.ΦA at h
    rw [show (pdats m 0 c).Φ 0 = (AggRegion.dat0 (V1 m) c).Φ 0 from rfl]
    iintro ⟨Hp, -, Hr⟩
    iapply h
    isplitl [Hr]; · iexact Hr
    iexact Hp
  hout c := by
    rw [Pipeline.ownSems0_none]
    have h := AggRegion.hout0 (V1 m) c
    unfold Pipeline.ΦA at h
    rw [show (pdats m 0 c).Φ (Fin.last _) = (AggRegion.dat0 (V1 m) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gating kernel's region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (GateRegion.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Whole

end
-- ==== Proof.Spec.lean ====
/-
  The function both programs compute, on the extended reals, index by index.

  A voxel n of batch b has a feature vector I[b, n, ·] of 64 channels. Per channel d it is compared with 32
  codewords: the residuals r_k = I[b,n,d] - c[k,d], the logits s_k = σ[k,d] · r_k², their softmax over k (shifted by
  the largest logit), and the aggregate E[b,n,d] = Σ_k softmax_k · r_k. The gate of batch b and channel d is the
  logistic function of (Σ_k (S[b,k] / 32) · W[d,k]) + β[d], where S[b,k] = Σ_n E[b,n,k] is the aggregate summed over
  the 8192 voxels. The result at (b, n, d) is max (E[b,n,d] · (1 + gate[b,d])) 0.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The words the programs spell -∞, 1 and 32 with, as extended reals. -/
abbrev negInf : EReal := Ideal.ofBits .f32 0xFF800000#32
abbrev one : EReal := Ideal.ofBits .f32 0x3F800000#32
abbrev k32 : EReal := Ideal.ofBits .f32 0x42000000#32

section Voxel

variable (x : EReal) (cw sc : Fin 32 → EReal)

/-- The residual of the feature against codeword k. -/
def resid (k : Fin 32) : EReal := x - cw k
/-- The logit of codeword k: its scale times the squared residual. -/
def logit (k : Fin 32) : EReal := sc k * (resid x cw k * resid x cw k)
/-- The largest logit (taken from -∞, and once more against -∞). -/
def top : EReal := max negInf (Finset.univ.fold max negInf (logit x cw sc))
/-- The shifted exponential of logit k. -/
def ew (k : Fin 32) : EReal := Ideal.exp (logit x cw sc k - top x cw sc)
/-- The softmax weight of codeword k times its residual. -/
def wr (k : Fin 32) : EReal := Ideal.div (ew x cw sc k) (∑ k' : Fin 32, ew x cw sc k') * resid x cw k
/-- The aggregate over the codewords. -/
def agg : EReal := ∑ k : Fin 32, wr x cw sc k

end Voxel

abbrev S3 : Shape := ⟨3, ![4, 8192, 64]⟩
abbrev SK : Shape := ⟨2, ![32, 64]⟩
abbrev SW : Shape := ⟨2, ![64, 64]⟩
abbrev SB : Shape := ⟨1, ![64]⟩

variable (I : S3.Idx → EReal) (cw sc : SK.Idx → EReal) (W : SW.Idx → EReal) (bias : SB.Idx → EReal)

/-- Codeword k's term of voxel n of batch b in channel d. -/
def T (b : Fin 4) (n : Fin 8192) (k : Fin 32) (d : Fin 64) : EReal :=
  wr (I (ix3 b n d)) (fun k => cw (ix2 k d)) (fun k => sc (ix2 k d)) k

/-- The aggregated residual of voxel n of batch b in channel d. -/
def E (b : Fin 4) (n : Fin 8192) (d : Fin 64) : EReal :=
  agg (I (ix3 b n d)) (fun k => cw (ix2 k d)) (fun k => sc (ix2 k d))

theorem E_eq_sum (b : Fin 4) (n : Fin 8192) (d : Fin 64) : E I cw sc b n d = ∑ k : Fin 32, T I cw sc b n k d := rfl

/-- The aggregate summed over the voxels of batch b. -/
def S (b : Fin 4) (d : Fin 64) : EReal := ∑ n : Fin 8192, E I cw sc b n d

/-- What the logistic function is applied to: the mean over the codewords pushed through the linear layer. -/
def pre (b : Fin 4) (d : Fin 64) : EReal :=
  (∑ k : Fin 64, Ideal.div (S I cw sc b k) k32 * W (ix2 d k)) + bias (ix1 d)

/-- The gate: 1 / (1 + e^(-z)). -/
def gate (b : Fin 4) (d : Fin 64) : EReal :=
  Ideal.div one (one + Ideal.exp (-(pre I cw sc W bias b d)))

/-- The result at (b, n, d). -/
def out (b : Fin 4) (n : Fin 8192) (d : Fin 64) : EReal :=
  max (E I cw sc b n d * (one + gate I cw sc W bias b d)) 0

end Cert.Spec

end
-- ==== Proof.HostGlue.lean ====
/-
  The host operations of the kernel program, read at an index on the extended reals. Before the first kernel the input
  is reshaped and transposed into the voxel features. Between the two kernels the gate is computed from the summed
  aggregate: the mean over the 32 codewords, the linear layer with the transposed weights, the bias, and the logistic
  function 1 / (1 + e^(-z)). After the second kernel the result is transposed and reshaped back, so position (t, h, w)
  of channel d reads voxel 1024 t + 32 h + w.
-/
import proofs.«175521_j30193620091340_1_alg».proof.Proof.Gen.KernelIdeal.Launch
import proofs.«175521_j30193620091340_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostGlue

open Cert.KernelIdeal Cert.KernelIdeal.Gen Idealize.ShloMosaic Idealize.ShloMosaic.TcCoe Idealize.ShloMosaic.ValueIdx

variable (W : Valuation τ sig (Elt Ideal))

/-- The voxel features: the input reshaped to [4, 64, 8192] and transposed to [4, 8192, 64]. -/
theorem feat_eq : StableHlo.after (hostOps0 (F := Ideal)) W (Proc.devRef .tc main_v1)
    = transpose S4x8192x64 [0, 2, 1] (shapeCast S4x64x8192 (W (Proc.devRef .tc main_arg0)) shapeCasts_S4x64x8x32x32_S4x64x8192)
        transposes_S4x64x8192_S4x8192x64_0_2_1 := by
  after_results
  rfl

/-- The gate chain leaves the first kernel's aggregate as it was. -/
theorem agg_kept : StableHlo.after (hostOps1 (F := Ideal)) W (Proc.devRef .tc main_v2_0) = W (Proc.devRef .tc main_v2_0) := by
  after_results

/-- Position (t, h, w) of channel d reads voxel 1024 t + 32 h + w. -/
theorem tail_at (b : Fin 4) (d : Fin 64) (t : Fin 8) (h w : Fin 32) :
    StableHlo.after (hostOps2 (F := Ideal)) W (Proc.devRef .tc main_v20) (ix5 b d t h w)
      = W (Proc.devRef .tc main_v18) (ix3 b ⟨t.val * 1024 + h.val * 32 + w.val, by omega⟩ d) := by
  have e : StableHlo.after (hostOps2 (F := Ideal)) W (Proc.devRef .tc main_v20)
      = shapeCast S4x64x8x32x32 (transpose S4x64x8192 [0, 2, 1] (W (Proc.devRef .tc main_v18)) transposes_S4x8192x64_S4x64x8192_0_2_1)
          shapeCasts_S4x64x8192_S4x64x8x32x32 := by
    after_results
    rfl
  have hb := b.isLt; have hd := d.isLt; have ht := t.isLt; have hh := h.isLt; have hw := w.isLt
  rw [e]
  rw [shapeCast_apply _ shapeCasts_S4x64x8192_S4x64x8x32x32 (ix5 b d t h w)
    (ix3 b d (⟨t.val * 1024 + h.val * 32 + w.val, by omega⟩ : Fin 8192))
    (by rw [Shape.rowMajor_val_three, Shape.rowMajor_val_five]
        show (b.val * 64 + d.val) * 8192 + (t.val * 1024 + h.val * 32 + w.val)
          = (((b.val * 64 + d.val) * 8 + t.val) * 32 + h.val) * 32 + w.val
        omega)]
  exact transpose_apply [0, 2, 1] _ transposes_S4x8192x64_S4x64x8192_0_2_1 _ _ (fun a => match a with
    | ⟨0, _⟩ => rfl
    | ⟨1, _⟩ => rfl
    | ⟨2, _⟩ => rfl)

/-! ## The layout operations of the gate chain at explicit coordinates -/

/-- [4, 1, 64] reshaped to [4, 64]: (b, d) reads (b, 0, d). -/
theorem squeeze_at {α : Type} (y : S4x1x64.Idx → α) (b : Fin 4) (d : Fin 64) :
    shapeCast S4x64 y shapeCasts_S4x1x64_S4x64 (ix2 b d) = y (ix3 b 0 d) :=
  shapeCast_apply y shapeCasts_S4x1x64_S4x64 (ix2 b d) (ix3 b 0 d)
    (by rw [Shape.rowMajor_val_three, Shape.rowMajor_val_two]
        show (b.val * 1 + 0) * 64 + d.val = b.val * 64 + d.val
        omega)

/-- [4, 64] reshaped to [4, 1, 64]: (b, 0, d) reads (b, d). -/
theorem unsqueeze_at {α : Type} (y : S4x64.Idx → α) (b : Fin 4) (d : Fin 64) :
    shapeCast S4x1x64 y shapeCasts_S4x64_S4x1x64 (ix3 b 0 d) = y (ix2 b d) :=
  shapeCast_apply y shapeCasts_S4x64_S4x1x64 (ix3 b 0 d) (ix2 b d)
    (by rw [Shape.rowMajor_val_three, Shape.rowMajor_val_two]
        show b.val * 64 + d.val = (b.val * 1 + 0) * 64 + d.val
        omega)

/-- A scalar broadcast to [4, 64] reads the scalar everywhere. -/
theorem splat_at {α : Type} (y : S_.Idx → α) (i : S4x64.Idx) :
    broadcastInDim S4x64 ![] bcast_S_S4x64 y i = y ix0 :=
  broadcastInDim_apply _ bcast_S_S4x64 y i ix0 (fun a => a.elim0)

/-- The transposed weights: (k, d) reads (d, k). -/
theorem weights_at {α : Type} (y : S64x64.Idx → α) (k d : Fin 64) :
    transpose S64x64 [1, 0] y transposes_S64x64_S64x64_1_0 (ix2 k d) = y (ix2 d k) :=
  transpose_apply [1, 0] y transposes_S64x64_S64x64_1_0 (ix2 k d) (ix2 d k) (fun a => match a with
    | ⟨0, _⟩ => rfl
    | ⟨1, _⟩ => rfl)

/-- The bias broadcast to [1, 64] and then to [4, 64]: (b, d) reads d. -/
theorem bias_at {α : Type} (y : S64.Idx → α) (b : Fin 4) (d : Fin 64) :
    broadcastInDim S4x64 ![0, 1] bcast_S1x64_S4x64_0_1 (broadcastInDim S1x64 ![1] bcast_S64_S1x64_1 y) (ix2 b d) = y (ix1 d) := by
  rw [broadcastInDim_apply _ bcast_S1x64_S4x64_0_1 _ (ix2 b d) (ix2 (0 : Fin 1) d) (fun a => match a with
    | ⟨0, _⟩ => by show 0 = if (1 : Nat) = 1 then 0 else b.val; rw [if_pos rfl]
    | ⟨1, _⟩ => by show d.val = if (64 : Nat) = 1 then 0 else d.val; rw [if_neg (by decide)])]
  exact broadcastInDim_apply _ bcast_S64_S1x64_1 y (ix2 (0 : Fin 1) d) (ix1 d) (fun a => match a with
    | ⟨0, _⟩ => by show d.val = if (64 : Nat) = 1 then 0 else d.val; rw [if_neg (by decide)])

/-! ## The linear layer: a contraction over the 64 input channels -/

theorem lhs_dot_0 (i : S4x64.Idx) (q : dot_S4x64_S64x64_S4x64_1_0_0_1_n_n.contr.Idx) :
    (dot_S4x64_S64x64_S4x64_1_0_0_1_n_n.lhsIdx i q 0).val = (i 0).val := by
  unfold DotDims.lhsIdx
  rw [dif_neg (show ¬(0 : Fin S4x64.rank) ∈ dot_S4x64_S64x64_S4x64_1_0_0_1_n_n.lhsBatch by decide),
    dif_pos (show (0 : Fin S4x64.rank) ∈ dot_S4x64_S64x64_S4x64_1_0_0_1_n_n.lhsNonContracting by decide)]
  rfl
theorem lhs_dot_1 (i : S4x64.Idx) (q : dot_S4x64_S64x64_S4x64_1_0_0_1_n_n.contr.Idx) :
    (dot_S4x64_S64x64_S4x64_1_0_0_1_n_n.lhsIdx i q 1).val = (q ⟨0, by decide⟩).val :=
  dot_S4x64_S64x64_S4x64_1_0_0_1_n_n.lhsIdx_val_of_single rfl i q
theorem rhs_dot_0 (i : S4x64.Idx) (q : dot_S4x64_S64x64_S4x64_1_0_0_1_n_n.contr.Idx) :
    (dot_S4x64_S64x64_S4x64_1_0_0_1_n_n.rhsIdx i q 0).val = (q ⟨0, by decide⟩).val :=
  dot_S4x64_S64x64_S4x64_1_0_0_1_n_n.rhsIdx_val_of_single rfl i q
theorem rhs_dot_1 (i : S4x64.Idx) (q : dot_S4x64_S64x64_S4x64_1_0_0_1_n_n.contr.Idx) :
    (dot_S4x64_S64x64_S4x64_1_0_0_1_n_n.rhsIdx i q 1).val = (i 1).val := by
  unfold DotDims.rhsIdx
  rw [dif_neg (show ¬(1 : Fin S64x64.rank) ∈ dot_S4x64_S64x64_S4x64_1_0_0_1_n_n.rhsBatch by decide),
    dif_pos (show (1 : Fin S64x64.rank) ∈ dot_S4x64_S64x64_S4x64_1_0_0_1_n_n.rhsNonContracting by decide)]
  rfl

/-- The contraction at (b, d) is the sum over k of left (b, k) times right (k, d). -/
theorem dot_at (l : FVec Ideal S4x64 .f32) (r : FVec Ideal S64x64 .f32) (b : Fin 4) (d : Fin 64) :
    Host.dotGeneral (F := Ideal) (φ₁ := .f32) (φ₂ := .f32) dot_S4x64_S64x64_S4x64_1_0_0_1_n_n none l r (ix2 b d)
      = ∑ k : Fin 64, l (ix2 b k) * r (ix2 k d) := by
  simp only [Host.dotGeneral]
  rw [Ideal.dotGeneral_apply, ← Equiv.sum_comp (ValueIdx.contrEquiv1 dot_S4x64_S64x64_S4x64_1_0_0_1_n_n 64 rfl rfl).symm]
  refine Finset.sum_congr rfl fun k _ => ?_
  have hk := ValueIdx.contrEquiv1_symm_val dot_S4x64_S64x64_S4x64_1_0_0_1_n_n 64 rfl rfl k
  have el : dot_S4x64_S64x64_S4x64_1_0_0_1_n_n.lhsIdx (ix2 b d)
      ((ValueIdx.contrEquiv1 dot_S4x64_S64x64_S4x64_1_0_0_1_n_n 64 rfl rfl).symm k) = ix2 b k :=
    funext fun a => Fin.ext (by
      match a with
      | ⟨0, _⟩ => exact lhs_dot_0 _ _
      | ⟨1, _⟩ => exact (lhs_dot_1 _ _).trans hk)
  have er : dot_S4x64_S64x64_S4x64_1_0_0_1_n_n.rhsIdx (ix2 b d)
      ((ValueIdx.contrEquiv1 dot_S4x64_S64x64_S4x64_1_0_0_1_n_n 64 rfl rfl).symm k) = ix2 k d :=
    funext fun a => Fin.ext (by
      match a with
      | ⟨0, _⟩ => exact (rhs_dot_0 _ _).trans hk
      | ⟨1, _⟩ => exact rhs_dot_1 _ _)
  rw [el, er]

/-! ## The gate -/

/-- The gate at (b, 0, d): the logistic function of the linear layer applied to the mean of the summed aggregate. -/
theorem gate_at (b : Fin 4) (d : Fin 64) :
    StableHlo.after (hostOps1 (F := Ideal)) W (Proc.devRef .tc main_v17) (ix3 b 0 d)
      = Ideal.div Cert.Spec.one (Cert.Spec.one + Ideal.exp (-((∑ k : Fin 64,
          Ideal.div (W (Proc.devRef .tc main_v2_1) (ix3 b 0 k)) Cert.Spec.k32 * W (Proc.devRef .tc main_arg3) (ix2 d k))
          + W (Proc.devRef .tc main_arg4) (ix1 d)))) := by
  have e : StableHlo.after (hostOps1 (F := Ideal)) W (Proc.devRef .tc main_v17)
      = shapeCast S4x1x64
          (Host.divf (F := Ideal) (broadcastInDim S4x64 ![] bcast_S_S4x64 (constant (F := Ideal) S_ .f32 0x3F800000#32))
            (addf (F := Ideal) (broadcastInDim S4x64 ![] bcast_S_S4x64 (constant (F := Ideal) S_ .f32 0x3F800000#32))
              (Host.exp (F := Ideal) (Host.negf (F := Ideal) (addf (F := Ideal)
                (Host.dotGeneral (F := Ideal) (φ₁ := .f32) (φ₂ := .f32) dot_S4x64_S64x64_S4x64_1_0_0_1_n_n none
                  (Host.divf (F := Ideal) (shapeCast S4x64 (W (Proc.devRef .tc main_v2_1)) shapeCasts_S4x1x64_S4x64)
                    (broadcastInDim S4x64 ![] bcast_S_S4x64 (constant (F := Ideal) S_ .f32 0x42000000#32)))
                  (transpose S64x64 [1, 0] (W (Proc.devRef .tc main_arg3)) transposes_S64x64_S64x64_1_0 : FVec Ideal S64x64 .f32))
                (broadcastInDim S4x64 ![0, 1] bcast_S1x64_S4x64_0_1
                  (broadcastInDim S1x64 ![1] bcast_S64_S1x64_1 (W (Proc.devRef .tc main_arg4)))))))))
          shapeCasts_S4x64_S4x1x64 := by
    after_results
    rfl
  rw [e, unsqueeze_at]
  show Ideal.div (broadcastInDim S4x64 ![] bcast_S_S4x64 (constant (F := Ideal) S_ .f32 0x3F800000#32) (ix2 b d))
      (broadcastInDim S4x64 ![] bcast_S_S4x64 (constant (F := Ideal) S_ .f32 0x3F800000#32) (ix2 b d)
        + Ideal.exp (-(Host.dotGeneral (F := Ideal) (φ₁ := .f32) (φ₂ := .f32) dot_S4x64_S64x64_S4x64_1_0_0_1_n_n none _ _ (ix2 b d)
            + broadcastInDim S4x64 ![0, 1] bcast_S1x64_S4x64_0_1
                (broadcastInDim S1x64 ![1] bcast_S64_S1x64_1 (W (Proc.devRef .tc main_arg4))) (ix2 b d)))) = _
  rw [splat_at, dot_at, bias_at]
  have hk : ∀ k : Fin 64,
      Host.divf (F := Ideal) (shapeCast S4x64 (W (Proc.devRef .tc main_v2_1)) shapeCasts_S4x1x64_S4x64)
          (broadcastInDim S4x64 ![] bcast_S_S4x64 (constant (F := Ideal) S_ .f32 0x42000000#32)) (ix2 b k)
        * transpose S64x64 [1, 0] (W (Proc.devRef .tc main_arg3)) transposes_S64x64_S64x64_1_0 (ix2 k d)
      = Ideal.div (W (Proc.devRef .tc main_v2_1) (ix3 b 0 k)) Cert.Spec.k32 * W (Proc.devRef .tc main_arg3) (ix2 d k) := fun k => by
    rw [weights_at]
    show Ideal.div (shapeCast S4x64 (W (Proc.devRef .tc main_v2_1)) shapeCasts_S4x1x64_S4x64 (ix2 b k))
        (broadcastInDim S4x64 ![] bcast_S_S4x64 (constant (F := Ideal) S_ .f32 0x42000000#32) (ix2 b k)) * _ = _
    rw [squeeze_at, splat_at]
    rfl
  simp only [hk]
  rfl

end Cert.KernelIdeal.HostGlue

end
-- ==== Proof.GateValue.lean ====
/-
  The result array of the gating region, index by index, over the extended reals.

  Point t = 4 b + j of the 4 x 4 grid writes rows 2048 j ... 2048 j + 2047 of batch b. What it writes at row r and
  channel d of its block is max (x · (1 + g)) 0, where x is the aggregate at (b, 2048 j + r, d) and g the gate at
  (b, 0, d): the aggregate block sits over the same rows as the result block, and the gate row is the row of the
  same batch. The sixteen blocks tile the array (row n of batch b is under point 4 b + n / 2048), so after the
  region the array holds that value at every index.
-/
import proofs.«175521_j30193620091340_1_alg».proof.Proof.GateRegion
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.GateValue

open Cert.KernelIdeal Cert.KernelIdeal.Gen Cert.KernelIdeal.GateRegion
open Idealize.ShloMosaic Idealize.ShloMosaic.TcCoe Idealize.SL.Sem Idealize.ShloMosaic.ValueIdx
open Idealize.ShloMosaic.Pipeline (Dat)

/-- The word the program spells 1 with, as an extended real. -/
abbrev one : EReal := Ideal.ofBits .f32 0x3F800000#32

/-! ## The value the body stores, at an index of the block -/

/-- At row r and channel d of the block: the aggregate there times one plus the gate of the channel, cut off
    below at zero. -/
theorem pay_apply (x : Vec Ideal S1x2048x64 .f32) (g : Vec Ideal S1x1x64 .f32) (u : Fin 1) (r : Fin 2048) (d : Fin 64) :
    k1_pay1 x g (ix3 u r d) = max (x (ix3 0 r d) * (one + g (ix3 0 0 d))) 0 := by
  unfold k1_pay1
  rw [shapeCast_ab_1ab_apply, maximumf_apply, mulf_apply, shapeCast_1ab_ab_apply, broadcastTo_1b_ab_apply,
    addf_apply, broadcast_apply, broadcast_apply, shapeCast_1ab_ab_apply]
  show max (x (ix3 0 r d) * (one + g (ix3 0 0 d))) (Ideal.ofBits .f32 0x00000000#32) = _
  rw [Ideal.ofBits_zero_f32]

/-! ## The array the region leaves -/

variable (V : (c : Dev nD) → (b : Ref sig .tc) → Buf (Elt Ideal) ((c : Thread nD τ).loc b))

theorem hz : (![0, 0, 0] : Fin 3 → Nat) = fun _ => 0 := funext fun a => by fin_cases a <;> rfl

/-- From the aggregate array a and the gate array g: at (b, n, d) the aggregate there times one plus the gate at
    (b, 0, d), cut off below at zero. -/
abbrev G (a : S4x8192x64.Idx → Elt Ideal .f32) (g : S4x1x64.Idx → Elt Ideal .f32) : S4x8192x64.Idx → Elt Ideal .f32 :=
  fun i => max (a i * (one + g (ix3 (n0 := 4) (n1 := 1) (n2 := 64) (i 0) 0 (i 2)))) 0

/-- Where the three windows' blocks sit at point t, decided over the sixteen points: the aggregate block where
    the result block is; the gate block at the result block's batch, its other two indices zero; the result block
    at batch t / 4, row block t % 4, and channel block zero. -/
theorem idx_facts : ∀ t : Fin cfg1.N,
    win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = 0
    ∧ win1_1.index t (2 : Fin 3) = 0
    ∧ win1_2.index t (0 : Fin 3) = t.val / 4
    ∧ win1_2.index t (1 : Fin 3) = t.val % 4
    ∧ win1_2.index t (2 : Fin 3) = 0 :=
  (by decide +kernel : ∀ t : Fin grid1.N, _)

/-- What point t writes back is its block of G of the two input arrays as the region finds them. -/
theorem flushed_eq (c : Dev nD) (t : Fin cfg1.N) :
    (dat1 V c).flushed 2 t = ((cfg1.win 2).blk t).view.read (Elt Ideal) (G (V c main_v2_0) (V c main_v17)) := by
  show (cfg1.win 2).cut (grid1.coords t) ((dat1 V c).after 2 t) = _
  rw [after_out]
  unfold gated
  rw [View.canon_unit_zero hz]
  simp only [View.ld_unit_zero (S := S1x2048x64) hz, View.ld_unit_zero (S := S1x1x64) hz]
  obtain ⟨e0, e1, e2, e3, e4, e5, -, -, q2⟩ := idx_facts t
  funext (j : S1x2048x64.Idx)
  obtain ⟨u, r, d, rfl⟩ : ∃ (u : Fin 1) (r : Fin 2048) (d : Fin 64), j = ix3 u r d := ⟨j 0, j 1, j 2, eq_ix3 j⟩
  show k1_pay1 (blk V c 0 t) (blk V c 1 t) (ix3 u r d) = G (V c main_v2_0) (V c main_v17) (((cfg1.win 2).blk t).view.emb (ix3 u r d))
  rw [pay_apply]
  have hu : u.val = 0 := by omega
  have hr : r.val < 2048 := r.isLt
  have hd : d.val < 64 := d.isLt
  -- the aggregate block's element sits in its array where the result block's sits in the result array
  have h0 : ((cfg1.win 0).blk t).view.emb (ix3 (0 : Fin 1) r d) = ((cfg1.win 2).blk t).view.emb (ix3 u r d) := by
    funext a; apply Fin.ext
    match a with
    | ⟨0, _⟩ => show win1_0.index t (0 : Fin 3) * 1 + 1 * 0 = win1_2.index t (0 : Fin 3) * 1 + 1 * u.val; omega
    | ⟨1, _⟩ => show win1_0.index t (1 : Fin 3) * 2048 + 1 * r.val = win1_2.index t (1 : Fin 3) * 2048 + 1 * r.val; omega
    | ⟨2, _⟩ => show win1_0.index t (2 : Fin 3) * 64 + 1 * d.val = win1_2.index t (2 : Fin 3) * 64 + 1 * d.val; omega
  -- the gate row's element sits at the result element's batch and channel, row zero
  have h1 : ((cfg1.win 1).blk t).view.emb (ix3 (0 : Fin 1) (0 : Fin 1) d)
      = ix3 (n0 := 4) (n1 := 1) (n2 := 64) (((cfg1.win 2).blk t).view.emb (ix3 u r d) 0) 0 (((cfg1.win 2).blk t).view.emb (ix3 u r d) 2) := by
    funext a; apply Fin.ext
    match a with
    | ⟨0, _⟩ => show win1_1.index t (0 : Fin 3) * 1 + 1 * 0 = win1_2.index t (0 : Fin 3) * 1 + 1 * u.val; omega
    | ⟨1, _⟩ => show win1_1.index t (1 : Fin 3) * 1 + 1 * 0 = 0; omega
    | ⟨2, _⟩ => show win1_1.index t (2 : Fin 3) * 64 + 1 * d.val = win1_2.index t (2 : Fin 3) * 64 + 1 * d.val; omega
  -- both sides are the same expression of the two elements read
  have key : ∀ x x' y y' : EReal, x = x' → y = y' → max (x * (one + y)) 0 = max (x' * (one + y')) 0 := by
    intro x x' y y' hx hy; rw [hx, hy]
  exact key _ _ _ _ (congrArg (V c main_v2_0) h0) (congrArg (V c main_v17) h1)

/-- An index of the result array is under point t's block when each coordinate is in the block's range. -/
theorem mem_blk (t : Fin cfg1.N) (i : S4x8192x64.Idx) :
    i ∈ ((cfg1.win 2).blk t).view.set ↔ ∀ a : Fin 3, win1_2.index t a * S1x2048x64.size a ≤ (i a).val ∧ (i a).val < win1_2.index t a * S1x2048x64.size a + S1x2048x64.size a := by
  show i ∈ ((View.whole main_v18).slice (win1_2.rect t)).set ↔ _
  rw [View.set_slice_whole, Rect.mem_set_unit]
  exact Iff.rfl

/-- Every index of the result array is under some point's block: row n of batch b under point 4 b + n / 2048. -/
theorem covered (i : S4x8192x64.Idx) : ∃ t : Fin cfg1.N, (cfg1.win 2).flush t = true ∧ i ∈ ((cfg1.win 2).blk t).view.set := by
  have hi0 : (i 0).val < 4 := (i 0).isLt
  have hi1 : (i 1).val < 8192 := (i 1).isLt
  have hi2 : (i 2).val < 64 := (i 2).isLt
  have hN : grid1.N = 16 := N_1
  obtain ⟨t, ht⟩ : ∃ t : Fin cfg1.N, t.val = 4 * (i 0).val + (i 1).val / 2048 :=
    ⟨⟨4 * (i 0).val + (i 1).val / 2048, by show _ < grid1.N; omega⟩, rfl⟩
  obtain ⟨-, -, -, -, -, -, q0, q1, q2⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 64 ≤ (i 2).val ∧ (i 2).val < win1_2.index t (2 : Fin 3) * 64 + 64; omega

/-- The result array after the region is G of the two input arrays on entry. -/
theorem final_out (c : Dev nD) : (dat1 V c).arrAt 2 cfg1.N = G (V c main_v2_0) (V c main_v17) :=
  (dat1 V c).arrAt_eq_of_cover 2 (G (V c main_v2_0) (V c main_v17)) (fun t _ => flushed_eq V c t) (covered)

/-- The aggregate array and the gate array as the region finds them, as functions to the extended reals. -/
abbrev aggIn (c : Dev nD) : S4x8192x64.Idx → EReal := V c main_v2_0
abbrev gateIn (c : Dev nD) : S4x1x64.Idx → EReal := V c main_v17

/-- The result array after the region, index by index. -/
theorem arr_out (c : Dev nD) (b : Fin 4) (n : Fin 8192) (d : Fin 64) :
    (dat1 (F := Ideal) V c).arrAt 2 cfg1.N (ix3 b n d)
      = max (aggIn V c (ix3 b n d) * (Ideal.ofBits .f32 0x3F800000#32 + gateIn V c (ix3 b 0 d))) 0 :=
  congrFun (final_out V c) (ix3 b n d)

/-- The same for any names a, g of the two input arrays as functions to the extended reals. -/
theorem arr_out_of (c : Dev nD) (a : S4x8192x64.Idx → EReal) (g : S4x1x64.Idx → EReal)
    (ha : V c main_v2_0 = a) (hg : V c main_v17 = g) (b : Fin 4) (n : Fin 8192) (d : Fin 64) :
    (dat1 (F := Ideal) V c).arrAt 2 cfg1.N (ix3 b n d)
      = max (a (ix3 b n d) * (Ideal.ofBits .f32 0x3F800000#32 + g (ix3 b 0 d))) 0 := by
  subst ha hg
  exact arr_out V c b n d

end Cert.KernelIdeal.GateValue

end
-- ==== Proof.AggPieces.lean ====
/-
  What each control case of the aggregation kernel leaves, as closed forms over the body's arithmetic.

  Every load and store of the body moves a whole buffer, so the pieces a case's run found read back as the payloads
  themselves: the first output's block is the aggregate of the point's input blocks; the accumulator is the column-sum
  update applied to what it held (to the zero splat just stored, at a batch's first tile); the second output's block,
  at a batch's last tile, is the accumulator just updated.
-/
import proofs.«175521_j30193620091340_1_alg».proof.Proof.AggRegion
import Idealize.ShloMosaic.Lib.Pipeline.Value

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
theorem out3_A (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) :
    out0_A_3 c i arg2 harg2 arg3 harg3 arg4 harg4 arg5 harg5 arg6 harg6 arg7 harg7 hc0 hc1 x0 x1 x2 = k0_pay5 x0 x1 x2 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  rw [View.canon_unit_zero hz3]
  simp only [View.readAt_eq_ld, harg2.read_unread, harg3.read_unread, harg4.read_unread, View.ld_unit_zero (S := S1x512x64) hz3, View.ld_unit_zero (S := S32x64) hz2]

set_option maxHeartbeats 1000000 in
theorem acc_A (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : cond0_0 i) (hc1 : ¬cond0_1 i)
    (x0 : Vec F S1x512x64 .f32) (x1 : Vec F S32x64 .f32) (x2 : Vec F S32x64 .f32) :
    sout0_A_0 c i arg2 harg2 arg3 harg3 arg4 harg4 arg5 harg5 arg6 harg6 arg7 harg7 hc0 hc1 x0 x1 x2 = k0_pay1 (k0_pay6 x0 x1 x2 (k0_pay3 (F := F))) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x64) hz2, View.readCov_unit_zero (S := S1x64) _ hz2]
  simp only [View.readAt_eq_ld, harg2.read_unread, harg3.read_unread, harg4.read_unread, View.ld_unit_zero (S := S1x512x64) hz3, View.ld_unit_zero (S := S32x64) hz2]

set_option maxHeartbeats 1000000 in
theorem out3_B (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) :
    out0_B_3 c i arg2 harg2 arg3 harg3 arg4 harg4 arg5 harg5 arg6 harg6 arg7 harg7 hc0 hc1 x0 x1 x2 xs0 = k0_pay5 x0 x1 x2 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  sl_unfold_words
  rw [View.canon_unit_zero hz3]
  simp only [View.readAt_eq_ld, harg2.read_unread, harg3.read_unread, harg4.read_unread, View.ld_unit_zero (S := S1x512x64) hz3, View.ld_unit_zero (S := S32x64) hz2]

set_option maxHeartbeats 1000000 in
theorem acc_B (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : ¬cond0_1 i)
    (x0 : Vec F S1x512x64 .f32) (x1 : Vec F S32x64 .f32) (x2 : Vec F S32x64 .f32) (xs0 : Vec F S1x64 .f32) :
    sout0_B_0 c i arg2 harg2 arg3 harg3 arg4 harg4 arg5 harg5 arg6 harg6 arg7 harg7 hc0 hc1 x0 x1 x2 xs0 = k0_pay1 (k0_pay6 x0 x1 x2 xs0) := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg2.read_unread, harg3.read_unread, harg4.read_unread, harg7.read_unread, View.ld_unit_zero (S := S1x512x64) hz3, View.ld_unit_zero (S := S32x64) hz2, View.ld_unit_zero (S := S1x64) hz2]

set_option maxHeartbeats 1000000 in
theorem out3_C (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) :
    out0_C_3 c i arg2 harg2 arg3 harg3 arg4 harg4 arg5 harg5 arg6 harg6 arg7 harg7 hc0 hc1 x0 x1 x2 xs0 = k0_pay5 x0 x1 x2 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg2.read_unread, harg3.read_unread, harg4.read_unread, View.ld_unit_zero (S := S1x512x64) hz3, View.ld_unit_zero (S := S32x64) hz2]

set_option maxHeartbeats 1000000 in
theorem acc_C (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) :
    sout0_C_0 c i arg2 harg2 arg3 harg3 arg4 harg4 arg5 harg5 arg6 harg6 arg7 harg7 hc0 hc1 x0 x1 x2 xs0 = k0_pay1 (k0_pay6 x0 x1 x2 xs0) := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg2.read_unread, harg3.read_unread, harg4.read_unread, harg7.read_unread, View.ld_unit_zero (S := S1x512x64) hz3, View.ld_unit_zero (S := S32x64) hz2, View.ld_unit_zero (S := S1x64) hz2]

set_option maxHeartbeats 1000000 in
theorem out4_C (c : Dev nD) (i : grid0.Coords) (arg2 : Memref sig .tc .vmem S1x512x64 .f32) (harg2 : arg2.IsWhole) (arg3 : Memref sig .tc .vmem S32x64 .f32) (harg3 : arg3.IsWhole) (arg4 : Memref sig .tc .vmem S32x64 .f32) (harg4 : arg4.IsWhole) (arg5 : Memref sig .tc .vmem S1x512x64 .f32) (harg5 : arg5.IsWhole) (arg6 : Memref sig .tc .vmem S1x1x64 .f32) (harg6 : arg6.IsWhole) (arg7 : Memref sig .tc .vmem S1x64 .f32) (harg7 : arg7.IsWhole) (hc0 : ¬cond0_0 i) (hc1 : cond0_1 i)
    (x0 : Vec F S1x512x64 .f32) (x1 : Vec F S32x64 .f32) (x2 : Vec F S32x64 .f32) (xs0 : Vec F S1x64 .f32) :
    out0_C_4 c i arg2 harg2 arg3 harg3 arg4 harg4 arg5 harg5 arg6 harg6 arg7 harg7 hc0 hc1 x0 x1 x2 xs0 = k0_pay2 (k0_pay1 (k0_pay6 x0 x1 x2 xs0)) := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz3, View.readCov_unit_zero (S := S1x64) _ hz2]
  simp only [View.readAt_eq_ld, harg2.read_unread, harg3.read_unread, harg4.read_unread, harg7.read_unread, View.ld_unit_zero (S := S1x512x64) hz3, View.ld_unit_zero (S := S32x64) hz2, View.ld_unit_zero (S := S1x64) hz2]

end Cert.KernelIdeal.AggRegion

end
-- ==== Proof.AggPayload.lean ====
/-
  The aggregation kernel's block values, read index by index over the extended reals.

  One step of the kernel holds a [1, 512, 64] block x of voxel features and the [32, 64] tables cw of codewords and
  sc of scales. Per row r and channel d it forms the 32 residuals x[r, d] - cw[k, d], the logits
  sc[k, d] · residual², their softmax over k (shifted by the largest logit, which is taken from -∞ and once more
  against -∞), and the aggregate Σ_k softmax_k · residual_k: Spec.agg of the feature against the channel's
  codewords and scales. The aggregate block is stored as it is (a leading unit axis added), and its column sums
  over the 512 rows are added to a [1, 64] running total. The other stored values are a [1, 64] row unchanged, the
  same row with one more unit axis, and a row of zeros.

  The layout steps are read first (a unit axis put in the middle, a block spread along a new middle or leading
  axis), then the two reductions over the codeword axis and the one over the rows, then the four stages of the
  aggregate over the blocks they read, and last the stored values themselves.
-/
import proofs.«175521_j30193620091340_1_alg».proof.Proof.Gen.KernelIdeal.Skeleton
import proofs.«175521_j30193620091340_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AggPayload

open Cert.KernelIdeal Cert.KernelIdeal.Gen Idealize.ShloMosaic Idealize.ShloMosaic.ValueIdx

variable {α : Type}

/-! ## Layout steps read at an index -/

/-- An [a, b] array given a unit middle axis reads, at (i, u, j), the array at (i, j). -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array spread along its middle axis reads, at (i, c, j), the array at (i, 0, j). -/
theorem bcast_a1b_akb {a k b : ℕ} (v : (⟨3, ![a, 1, b]⟩ : Shape).Idx → α)
    (h : (⟨3, ![a, 1, b]⟩ : Shape).Broadcasts ⟨3, ![a, k, b]⟩) (i : Fin a) (c : Fin k) (j : Fin b) :
    broadcastTo ⟨3, ![a, k, b]⟩ v h (ix3 i c j) = v (ix3 i (0 : Fin 1) j) := by
  refine broadcastTo_apply v h (ix3 i c j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, k, b] array spread along its leading axis reads, at (i, c, j), the array at (0, c, j). -/
theorem bcast_1kb_akb {a k b : ℕ} (v : (⟨3, ![1, k, b]⟩ : Shape).Idx → α)
    (h : (⟨3, ![1, k, b]⟩ : Shape).Broadcasts ⟨3, ![a, k, b]⟩) (i : Fin a) (c : Fin k) (j : Fin b) :
    broadcastTo ⟨3, ![a, k, b]⟩ v h (ix3 i c j) = v (ix3 (0 : Fin 1) c j) := by
  refine broadcastTo_apply v h (ix3 i c j) (ix3 (0 : Fin 1) c j) fun ax => ?_
  match ax with
  | ⟨0, _⟩ => rfl
  | ⟨1, _⟩ =>
    show c.val = if k = 1 then 0 else c.val
    split
    · have := c.isLt; omega
    · rfl
  | ⟨2, _⟩ =>
    show j.val = if b = 1 then 0 else j.val
    split
    · have := j.isLt; omega
    · rfl

/-! ## The stored values that only change shape, and the zero row -/

/-- A [1, 64] row cast to its own shape is the row. -/
theorem pay1_eq (v : FVec Ideal S1x64 .f32) : k0_pay1 (F := Ideal) v = v := by
  unfold k0_pay1
  exact shapeCast_self v _

/-- A [1, 64] row given one more leading unit axis reads, at (0, 0, d), the row at (0, d). -/
theorem pay2_at (v : Vec Ideal S1x64 .f32) (d : Fin 64) : k0_pay2 (F := Ideal) v (ix3 0 0 d) = v (ix2 0 d) := by
  unfold k0_pay2
  exact shapeCast_ab_1ab_apply v _ 0 0 d

/-- The zero row is zero at every channel. -/
theorem pay3_at (d : Fin 64) : k0_pay3 (F := Ideal) (ix2 0 d) = 0 := by
  unfold k0_pay3
  refine (congrFun (shapeCast_self _ _) _).trans ?_
  exact Ideal.ofBits_zero_f32

/-- The stored aggregate block at (0, r, d) is the aggregate block at (r, d). -/
theorem pay5_at (x : Vec Ideal S1x512x64 .f32) (cw sc : Vec Ideal S32x64 .f32) (r : Fin 512) (d : Fin 64) :
    k0_pay5 (F := Ideal) x cw sc (ix3 0 r d) = k0_pay4 (F := Ideal) x cw sc (ix2 r d) := by
  unfold k0_pay5
  exact shapeCast_ab_1ab_apply _ _ 0 r d

/-! ## The reductions read at an index -/

/-- A sum over the middle axis of a [512, 32, 64] block, read at (r, d): the sum over k of the block at (r, k, d). -/
theorem red1_add (src : FVec Ideal S512x32x64 .f32) (acc : BitVec FTy.f32.bits) (h : S512x32x64.Reduces [1] S512x64)
    (hφ : FKind.Formats .f32) (hacc : acc = FKind.add.neutral .f32 hφ) (r : Fin 512) (d : Fin 64) :
    multiReduction .add [1] S512x64 src acc h hφ hacc (ix2 r d) = ∑ k : Fin 32, src (ix3 r k d) := by
  refine (Ideal.multiReduction_add_single src acc h hφ hacc (ix2 r d)).trans ?_
  show ∑ k : Fin 32, src (h.lift (ix2 r d) k) = _
  refine Finset.sum_congr rfl fun k _ => congrArg src (funext fun a => Fin.ext ?_)
  match a with
  | ⟨0, _⟩ => rfl
  | ⟨1, _⟩ => rfl
  | ⟨2, _⟩ => rfl

/-- A maximum over the middle axis of a [512, 32, 64] block, read at (r, d): the fold of max over k of the block at
    (r, k, d), from the accumulator's value. -/
theorem red1_max (src : FVec Ideal S512x32x64 .f32) (acc : BitVec FTy.f32.bits) (h : S512x32x64.Reduces [1] S512x64)
    (hφ : FKind.Formats .f32) (hacc : acc = FKind.maximumf.neutral .f32 hφ) (r : Fin 512) (d : Fin 64) :
    multiReduction .maximumf [1] S512x64 src acc h hφ hacc (ix2 r d)
      = (Finset.univ : Finset (Fin 32)).fold max (Ideal.ofBits .f32 acc) (fun k => src (ix3 r k d)) := by
  refine (Ideal.multiReduction_maximumf_single src acc h hφ hacc (ix2 r d)).trans ?_
  show (Finset.univ : Finset (Fin 32)).fold max (Ideal.ofBits .f32 acc) (src ∘ h.lift (ix2 r d)) = _
  have e : (fun k : Fin 32 => src (h.lift (ix2 r d) k)) = fun k : Fin 32 => src (ix3 r k d) :=
    funext fun k => congrArg src (funext fun a => Fin.ext (by
      match a with
      | ⟨0, _⟩ => rfl
      | ⟨1, _⟩ => rfl
      | ⟨2, _⟩ => rfl))
  exact congrArg (fun f : Fin 32 → Ideal .f32 => (Finset.univ : Finset (Fin 32)).fold max (Ideal.ofBits .f32 acc) f) e

/-- A sum over the rows of a [512, 64] block, read at d: the sum over r of the block at (r, d). -/
theorem red0_add (src : FVec Ideal S512x64 .f32) (acc : BitVec FTy.f32.bits) (h : S512x64.Reduces [0] S64)
    (hφ : FKind.Formats .f32) (hacc : acc = FKind.add.neutral .f32 hφ) (d : Fin 64) :
    multiReduction .add [0] S64 src acc h hφ hacc (ix1 d) = ∑ r : Fin 512, src (ix2 r d) := by
  refine (Ideal.multiReduction_add_single src acc h hφ hacc (ix1 d)).trans ?_
  show ∑ r : Fin 512, src (h.lift (ix1 d) r) = _
  refine Finset.sum_congr rfl fun r _ => congrArg src (funext fun a => Fin.ext ?_)
  match a with
  | ⟨0, _⟩ => rfl
  | ⟨1, _⟩ => rfl

/-- The running total at channel d grows by the aggregate block's column sum over the 512 rows. -/
theorem pay6_at (x : Vec Ideal S1x512x64 .f32) (cw sc : Vec Ideal S32x64 .f32) (acc : Vec Ideal S1x64 .f32) (d : Fin 64) :
    k0_pay6 (F := Ideal) x cw sc acc (ix2 0 d) = acc (ix2 0 d) + ∑ r : Fin 512, k0_pay4 (F := Ideal) x cw sc (ix2 r d) := by
  unfold k0_pay6
  refine (addf_apply _ _ _).trans ?_
  refine congrArg (acc (ix2 0 d) + ·) ?_
  refine (shapeCast_a_1a_apply _ _ 0 d).trans ?_
  exact red0_add _ _ _ _ _ d

/-! ## The two spreads the aggregate uses -/

/-- A [512, 64] block given a unit middle axis and spread over the 32 codewords reads, at (r, k, d), the block at (r, d). -/
theorem rowB (v : S512x64.Idx → α) (h1 : S512x64.ShapeCasts S512x1x64) (h2 : S512x1x64.Broadcasts S512x32x64)
    (r : Fin 512) (k : Fin 32) (d : Fin 64) :
    broadcastTo S512x32x64 (shapeCast S512x1x64 v h1) h2 (ix3 r k d) = v (ix2 r d) :=
  (bcast_a1b_akb _ h2 r k d).trans (cast_ab_a1b v h1 r 0 d)

/-- A [32, 64] table given a unit leading axis and spread over the 512 rows reads, at (r, k, d), the table at (k, d). -/
theorem tabB (c : S32x64.Idx → α) (h1 : S32x64.ShapeCasts S1x32x64) (h2 : S1x32x64.Broadcasts S512x32x64)
    (r : Fin 512) (k : Fin 32) (d : Fin 64) :
    broadcastTo S512x32x64 (shapeCast S1x32x64 c h1) h2 (ix3 r k d) = c (ix2 k d) :=
  (bcast_1kb_akb _ h2 r k d).trans (shapeCast_ab_1ab_apply c h1 0 k d)

/-! ## The four stages of the aggregate, each over the blocks it reads

Row r and channel d are fixed; xv is the feature there, cv and sv the 32 codewords and scales of channel d. -/

section Stages
variable (r : Fin 512) (d : Fin 64) (xv : EReal) (cv sv : Fin 32 → EReal)

/-- The residual block at (r, k, d) is the feature minus codeword k. -/
theorem resid_blk (x : Vec Ideal S1x512x64 .f32) (cw : Vec Ideal S32x64 .f32)
    (hA : S1x512x64.ShapeCasts S512x64) (hB : S512x64.ShapeCasts S512x1x64) (hC : S512x1x64.Broadcasts S512x32x64)
    (hD : S32x64.ShapeCasts S1x32x64) (hE : S1x32x64.Broadcasts S512x32x64)
    (hx : x (ix3 0 r d) = xv) (hc : ∀ k, cw (ix2 k d) = cv k) (k : Fin 32) :
    subf (F := Ideal) (φ := .f32) (broadcastTo S512x32x64 (shapeCast S512x1x64 (shapeCast S512x64 x hA) hB) hC)
      (broadcastTo S512x32x64 (shapeCast S1x32x64 cw hD) hE) (ix3 r k d) = Cert.Spec.resid xv cv k := by
  refine (subf_apply _ _ _).trans ?_
  refine congrArg₂ (· - ·) ?_ ?_
  · exact ((rowB _ hB hC r k d).trans (shapeCast_1ab_ab_apply x hA r d)).trans hx
  · exact (tabB cw hD hE r k d).trans (hc k)

/-- The logit block at (r, k, d) is scale k times the squared residual. -/
theorem logit_blk (R : FVec Ideal S512x32x64 .f32) (sc : Vec Ideal S32x64 .f32)
    (hD : S32x64.ShapeCasts S1x32x64) (hE : S1x32x64.Broadcasts S512x32x64)
    (hR : ∀ k, R (ix3 r k d) = Cert.Spec.resid xv cv k) (hs : ∀ k, sc (ix2 k d) = sv k) (k : Fin 32) :
    mulf (F := Ideal) (φ := .f32) (broadcastTo S512x32x64 (shapeCast S1x32x64 sc hD) hE) (mulf R R) (ix3 r k d)
      = Cert.Spec.logit xv cv sv k := by
  refine (mulf_apply _ _ _).trans ?_
  refine congrArg₂ (· * ·) ((tabB sc hD hE r k d).trans (hs k)) ?_
  refine (mulf_apply _ _ _).trans ?_
  exact congrArg₂ (· * ·) (hR k) (hR k)

/-- The block of shifted exponentials at (r, k, d): the largest logit of the row is taken over the 32 codewords, and
    once more against -∞. -/
theorem ew_blk (Lg : FVec Ideal S512x32x64 .f32) (c : Ideal .f32) (w : BitVec FTy.f32.bits)
    (h : S512x32x64.Reduces [1] S512x64) (hφ : FKind.Formats .f32) (hacc : w = FKind.maximumf.neutral .f32 hφ)
    (hB : S512x64.ShapeCasts S512x1x64) (hC : S512x1x64.Broadcasts S512x32x64)
    (hc : c = Cert.Spec.negInf) (hw : Ideal.ofBits .f32 w = Cert.Spec.negInf)
    (hL : ∀ k, Lg (ix3 r k d) = Cert.Spec.logit xv cv sv k) (k : Fin 32) :
    exp (subf Lg (broadcastTo S512x32x64 (shapeCast S512x1x64
        (maximumf (broadcast S512x64 c) (multiReduction .maximumf [1] S512x64 Lg w h hφ hacc)) hB) hC)) (ix3 r k d)
      = Cert.Spec.ew xv cv sv k := by
  show Ideal.exp (subf Lg _ (ix3 r k d)) = _
  refine congrArg Ideal.exp ?_
  refine (subf_apply _ _ _).trans ?_
  refine congrArg₂ (· - ·) (hL k) ?_
  refine (rowB _ hB hC r k d).trans ?_
  refine (maximumf_apply _ _ _).trans ?_
  refine congrArg₂ max hc ?_
  refine (red1_max Lg w h hφ hacc r d).trans ?_
  rw [hw]
  exact congrArg (fun f : Fin 32 → EReal => (Finset.univ : Finset (Fin 32)).fold max Cert.Spec.negInf f) (funext hL)

/-- The aggregate at (r, d): the exponentials divided by their sum over the codewords, times the residuals, summed
    over the codewords. -/
theorem agg_blk (E R : FVec Ideal S512x32x64 .f32) (z z' : BitVec FTy.f32.bits)
    (h h' : S512x32x64.Reduces [1] S512x64) (hφ hφ' : FKind.Formats .f32)
    (hacc : z = FKind.add.neutral .f32 hφ) (hacc' : z' = FKind.add.neutral .f32 hφ')
    (hB : S512x64.ShapeCasts S512x1x64) (hC : S512x1x64.Broadcasts S512x32x64)
    (hE : ∀ k, E (ix3 r k d) = Cert.Spec.ew xv cv sv k) (hR : ∀ k, R (ix3 r k d) = Cert.Spec.resid xv cv k) :
    multiReduction .add [1] S512x64
        (mulf (divf E (broadcastTo S512x32x64 (shapeCast S512x1x64 (multiReduction .add [1] S512x64 E z h hφ hacc) hB) hC)) R)
        z' h' hφ' hacc' (ix2 r d)
      = Cert.Spec.agg xv cv sv := by
  refine (red1_add _ z' h' hφ' hacc' r d).trans ?_
  refine Finset.sum_congr rfl fun k _ => ?_
  refine (mulf_apply _ _ _).trans ?_
  refine congrArg₂ (· * ·) ?_ (hR k)
  refine (divf_apply _ _ _).trans ?_
  refine congrArg₂ Ideal.div (hE k) ?_
  refine (rowB _ hB hC r k d).trans ?_
  refine (red1_add E z h hφ hacc r d).trans ?_
  exact Finset.sum_congr rfl fun k' _ => hE k'

end Stages

/-- The aggregation chain at row r and channel d of the block is the aggregate of the feature there against the 32
    codewords and scales of the channel. -/
theorem pay4_at (x : Vec Ideal S1x512x64 .f32) (cw sc : Vec Ideal S32x64 .f32) (r : Fin 512) (d : Fin 64) :
    k0_pay4 (F := Ideal) x cw sc (ix2 r d)
      = Cert.Spec.agg (x (ix3 0 r d)) (fun k => cw (ix2 k d)) (fun k => sc (ix2 k d)) := by
  unfold k0_pay4
  have hR := resid_blk r d (x (ix3 0 r d)) (fun k => cw (ix2 k d)) x cw shapeCasts_S1x512x64_S512x64
    shapeCasts_S512x64_S512x1x64 broadcasts_S512x1x64_S512x32x64 shapeCasts_S32x64_S1x32x64
    broadcasts_S1x32x64_S512x32x64 rfl (fun _ => rfl)
  have hL := logit_blk r d (x (ix3 0 r d)) (fun k => cw (ix2 k d)) (fun k => sc (ix2 k d)) _ sc
    shapeCasts_S32x64_S1x32x64 broadcasts_S1x32x64_S512x32x64 hR (fun _ => rfl)
  exact agg_blk r d _ _ _ _ _ _ _ _ _ _ _ _ _ _ _
    (ew_blk r d _ _ _ _ _ _ _ _ _ _ _ rfl rfl hL) hR

end Cert.KernelIdeal.AggPayload

end
-- ==== Proof.AggValueE.lean ====
/-
  The first output of the aggregation region, index by index, over the extended reals.

  Point t = 16 b + j of the 4 x 16 grid stores, whichever of the three control cases it is in, the aggregates of
  its 512 voxels: rows 512 j ... 512 j + 511 of batch b. The aggregate at row r and channel d of the block is the
  softmax-weighted sum of residuals of the feature at (b, 512 j + r, d) against the 32 codewords of channel d. The
  feature block sits over the same rows as the output block and the two codeword tables are staged whole, so the
  block written is the block of one function of the three input arrays; the sixty-four blocks tile the array.
-/
import proofs.«175521_j30193620091340_1_alg».proof.Proof.AggPieces
import proofs.«175521_j30193620091340_1_alg».proof.Proof.AggPayload
import proofs.«175521_j30193620091340_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.AggValue

open Cert.KernelIdeal Cert.KernelIdeal.Gen Cert.KernelIdeal.AggRegion Cert.KernelIdeal.AggPayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays the region reads, as it finds them, as functions to the extended reals: the features, the
    codewords and their scales. -/
abbrev feats (c : Dev nD) : S4x8192x64.Idx → EReal := V c main_v1
abbrev cws (c : Dev nD) : S32x64.Idx → EReal := V c main_arg1
abbrev scs (c : Dev nD) : S32x64.Idx → EReal := V c main_arg2

/-! ## The first output's buffer after every point -/

/-- Whatever the case of point t, the first output's buffer ends at the aggregate of the point's three input blocks. -/
theorem out3_eq (c : Dev nD) (t : Fin cfg0.N) :
    (outsAt0 V c t.val t.isLt).1 = k0_pay5 (iblk0 V c 0 t) (iblk0 V c 1 t) (iblk0 V c 2 t) := by
  by_cases h0 : t.val % 16 = 0
  · have h1 : ¬t.val % 16 = 15 := by omega
    rw [outsAt0_A V c t h0 h1]
    unfold caseA
    dsimp only
    exact out3_A c (grid0.coords t) (ms0_0 t) (hs0_0 t) (ms0_1 t) (hs0_1 t) (ms0_2 t) (hs0_2 t) (ms0_3 t) (hs0_3 t) (ms0_4 t) (hs0_4 t) scM0_0 (Memref.isWhole_whole _)
      ((hcond0_0 t).mpr h0) (fun h => h1 ((hcond0_1 t).mp h)) (iblk0 V c 0 t) (iblk0 V c 1 t) (iblk0 V c 2 t)
  · by_cases h1 : t.val % 16 = 15
    · rw [outsAt0_C V c t h0 h1]
      unfold caseC
      dsimp only
      exact out3_C c (grid0.coords t) (ms0_0 t) (hs0_0 t) (ms0_1 t) (hs0_1 t) (ms0_2 t) (hs0_2 t) (ms0_3 t) (hs0_3 t) (ms0_4 t) (hs0_4 t) scM0_0 (Memref.isWhole_whole _)
        (fun h => h0 ((hcond0_0 t).mp h)) ((hcond0_1 t).mpr h1) (iblk0 V c 0 t) (iblk0 V c 1 t) (iblk0 V c 2 t)
        (outsAt0 V c (t.val - 1) (Nat.lt_of_le_of_lt (Nat.sub_le _ _) t.isLt)).2.2
    · rw [outsAt0_B V c t h0 h1]
      unfold caseB
      dsimp only
      exact out3_B c (grid0.coords t) (ms0_0 t) (hs0_0 t) (ms0_1 t) (hs0_1 t) (ms0_2 t) (hs0_2 t) (ms0_3 t) (hs0_3 t) (ms0_4 t) (hs0_4 t) scM0_0 (Memref.isWhole_whole _)
        (fun h => h0 ((hcond0_0 t).mp h)) (fun h => h1 ((hcond0_1 t).mp h)) (iblk0 V c 0 t) (iblk0 V c 1 t) (iblk0 V c 2 t)
        (outsAt0 V c (t.val - 1) (Nat.lt_of_le_of_lt (Nat.sub_le _ _) t.isLt)).2.2

/-! ## Where the blocks sit -/

/-- The five windows' block indices at point t, decided over the sixty-four points: the feature block where the
    first output's block is; the two tables at index zero; the first output's block at batch t / 16, row block
    t % 16, channel block zero; the second output's block at batch t / 16, its other two indices zero. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = win0_3.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 16 ∧ win0_3.index t (1 : Fin 3) = t.val % 16 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- The feature block of point t at row r and channel d is the feature of batch t / 16 at voxel 512 (t % 16) + r. -/
theorem feat_blk (c : Dev nD) (t : Fin cfg0.N) (u : Fin 1) (r : Fin 512) (d : Fin 64) :
    iblk0 V c 0 t (ix3 u r d) = feats V c (((cfg0.win 3).blk t).view.emb (ix3 u r d)) := by
  obtain ⟨e0, e1, e2, -⟩ := idx_facts t
  have h : ((cfg0.win 0).blk t).view.emb (ix3 u r d) = ((cfg0.win 3).blk t).view.emb (ix3 u r d) := by
    funext a; apply Fin.ext
    match a with
    | ⟨0, _⟩ => show win0_0.index t (0 : Fin 3) * 1 + 1 * u.val = win0_3.index t (0 : Fin 3) * 1 + 1 * u.val; omega
    | ⟨1, _⟩ => show win0_0.index t (1 : Fin 3) * 512 + 1 * r.val = win0_3.index t (1 : Fin 3) * 512 + 1 * r.val; omega
    | ⟨2, _⟩ => show win0_0.index t (2 : Fin 3) * 64 + 1 * d.val = win0_3.index t (2 : Fin 3) * 64 + 1 * d.val; omega
  exact congrArg (V c main_v1) h

/-- The codeword block of any point is the codeword table. -/
theorem cw_blk (c : Dev nD) (t : Fin cfg0.N) (k : Fin 32) (d : Fin 64) : iblk0 V c 1 t (ix2 k d) = cws V c (ix2 k d) := by
  obtain ⟨-, -, -, e3, e4, -⟩ := idx_facts t
  have h : ((cfg0.win 1).blk t).view.emb (ix2 k d) = ix2 k d := by
    funext a; apply Fin.ext
    match a with
    | ⟨0, _⟩ => show win0_1.index t (0 : Fin 2) * 32 + 1 * k.val = k.val; omega
    | ⟨1, _⟩ => show win0_1.index t (1 : Fin 2) * 64 + 1 * d.val = d.val; omega
  exact congrArg (V c main_arg1) h

/-- The scale block of any point is the scale table. -/
theorem sc_blk (c : Dev nD) (t : Fin cfg0.N) (k : Fin 32) (d : Fin 64) : iblk0 V c 2 t (ix2 k d) = scs V c (ix2 k d) := by
  obtain ⟨-, -, -, -, -, e5, e6, -⟩ := idx_facts t
  have h : ((cfg0.win 2).blk t).view.emb (ix2 k d) = ix2 k d := by
    funext a; apply Fin.ext
    match a with
    | ⟨0, _⟩ => show win0_2.index t (0 : Fin 2) * 32 + 1 * k.val = k.val; omega
    | ⟨1, _⟩ => show win0_2.index t (1 : Fin 2) * 64 + 1 * d.val = d.val; omega
  exact congrArg (V c main_arg2) h

/-! ## The array the region leaves in the first output -/

/-- At (b, n, d): the aggregate E of the three input arrays. -/
abbrev GE (c : Dev nD) : S4x8192x64.Idx → Elt Ideal .f32 :=
  fun i => Cert.Spec.E (feats V c) (cws V c) (scs V c) (i 0) (i 1) (i 2)

/-- E at an index i of channel d, from the feature there and the two tables' columns of channel d. -/
theorem GE_apply (c : Dev nD) (i : S4x8192x64.Idx) (x : EReal) (hx : x = feats V c i) (d : Fin 64) (hd : i 2 = d) :
    Cert.Spec.agg x (fun k => cws V c (ix2 k d)) (fun k => scs V c (ix2 k d)) = GE V c i := by
  subst hx hd
  exact congrArg (fun j : S4x8192x64.Idx => Cert.Spec.agg (feats V c j) (fun k => cws V c (ix2 k (i 2))) (fun k => scs V c (ix2 k (i 2)))) (eq_ix3 i)

/-- The aggregate the body stores at row r and channel d of the block of point t is E at the index that element
    has in the array. -/
theorem pay5_blk (c : Dev nD) (t : Fin cfg0.N) (u : Fin 1) (r : Fin 512) (d : Fin 64) :
    k0_pay5 (F := Ideal) (iblk0 V c 0 t) (iblk0 V c 1 t) (iblk0 V c 2 t) (ix3 u r d)
      = GE V c (((cfg0.win 3).blk t).view.emb (ix3 u r d)) := by
  obtain rfl : u = 0 := Fin.ext (by omega)
  rw [pay5_at, pay4_at]
  simp only [cw_blk, sc_blk]
  obtain ⟨-, -, -, -, -, -, -, -, -, q2, -⟩ := idx_facts t
  -- the channel of the element in the array is d
  have hd : ((cfg0.win 3).blk t).view.emb (ix3 (0 : Fin 1) r d) 2 = d := by
    apply Fin.ext
    show win0_3.index t (2 : Fin 3) * 64 + 1 * d.val = d.val
    omega
  exact GE_apply V c _ _ (feat_blk V c t 0 r d) d hd

/-- What point t writes back is its block of GE. -/
theorem flushed3_eq (c : Dev nD) (t : Fin cfg0.N) :
    (dat0 V c).flushed 3 t = ((cfg0.win 3).blk t).view.read (Elt Ideal) (GE V c) := by
  show (cfg0.win 3).cut (grid0.coords t) ((dat0 V c).after 3 t) = _
  rw [after0_3, out3_eq]
  funext (j : S1x512x64.Idx)
  obtain ⟨u, r, d, rfl⟩ : ∃ (u : Fin 1) (r : Fin 512) (d : Fin 64), j = ix3 u r d := ⟨j 0, j 1, j 2, eq_ix3 j⟩
  exact pay5_blk V c t u r d

/-- An index of the first output is under point t's block when each coordinate is in the block's range. -/
theorem mem_blk3 (t : Fin cfg0.N) (i : S4x8192x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v2_0).slice (win0_3.rect t)).set ↔ _
  rw [View.set_slice_whole, Rect.mem_set_unit]
  exact Iff.rfl

/-- Every index of the first output is under some point's block: voxel n of batch b under point 16 b + n / 512. -/
theorem covered3 (i : S4x8192x64.Idx) : ∃ t : Fin cfg0.N, (cfg0.win 3).flush t = true ∧ i ∈ ((cfg0.win 3).blk t).view.set := by
  have hi0 : (i 0).val < 4 := (i 0).isLt
  have hi1 : (i 1).val < 8192 := (i 1).isLt
  have hi2 : (i 2).val < 64 := (i 2).isLt
  have hN : grid0.N = 64 := N_0
  obtain ⟨t, ht⟩ : ∃ t : Fin cfg0.N, t.val = 16 * (i 0).val + (i 1).val / 512 :=
    ⟨⟨16 * (i 0).val + (i 1).val / 512, by show _ < grid0.N; omega⟩, rfl⟩
  obtain ⟨-, -, -, -, -, -, -, q0, q1, q2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The first output after the region is GE of the three input arrays on entry. -/
theorem final_E (c : Dev nD) : (dat0 V c).arrAt 3 cfg0.N = GE V c :=
  (dat0 V c).arrAt_eq_of_cover 3 (GE V c) (fun t _ => flushed3_eq V c t) covered3

/-- The first output after the region, index by index. -/
theorem arr_E (c : Dev nD) (b : Fin 4) (n : Fin 8192) (d : Fin 64) :
    (dat0 (F := Ideal) V c).arrAt 3 cfg0.N (ix3 b n d) = Cert.Spec.E (feats V c) (cws V c) (scs V c) b n d :=
  congrFun (final_E V c) (ix3 b n d)

end Cert.KernelIdeal.AggValue

end
-- ==== Proof.AggAcc.lean ====
/-
  The first kernel's accumulator after the last tile of a batch. At every tile the kernel adds to the accumulator, per
  channel d, the sum over the tile's 512 voxels of the aggregate E; a batch's first tile starts from zero. So after tile
  j of batch b the accumulator holds the sum of E over the voxels 0 … 512 (j + 1) - 1 of the batch, and after the last
  tile the sum over all 8192 voxels.
-/
import proofs.«175521_j30193620091340_1_alg».proof.Proof.AggPieces
import proofs.«175521_j30193620091340_1_alg».proof.Proof.AggPayload
import proofs.«175521_j30193620091340_1_alg».proof.Proof.Spec
import Idealize.ShloMosaic.Lib.ValueIdx
import Idealize.ShloMosaic.PureOps.Ideal.Laws
import Mathlib.Algebra.BigOperators.Fin
import Mathlib.Algebra.BigOperators.Intervals

set_option maxRecDepth 16384

noncomputable section

namespace Cert.KernelIdeal.AggAcc

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)

/-! ## The input blocks at a grid point -/

/-- Point t is tile t % 16 of batch t / 16; the codeword arrays are staged whole. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The feature block at point t: row r of the block is voxel 512 (t % 16) + r of batch t / 16. -/
theorem blk0_at (t : Fin cfg0.N) (r : Fin 512) (d : Fin 64) :
    (AggRegion.iblk0 (F := Ideal) V c 0 t : Vec Ideal S1x512x64 .f32) (ix3 0 r d)
      = (V c main_v1 : Vec Ideal S4x8192x64 .f32)
          (ix3 (⟨t.val / 16, by have := t.isLt; have h64 : cfg0.N = 64 := N_0; omega⟩ : Fin 4)
            (⟨512 * (t.val % 16) + r.val, by have := r.isLt; omega⟩ : Fin 8192) d) := by
  obtain ⟨e0, e1, e2, -⟩ := idx_facts t
  show (V c main_v1 : Vec Ideal S4x8192x64 .f32) (((cfg0.win 0).blk t).view.emb (ix3 0 r d)) = _
  refine congrArg (V c main_v1 : Vec Ideal S4x8192x64 .f32) (funext fun a => Fin.ext ?_)
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 64 + 1 * d.val = d.val; omega

/-- The codeword block at every point is the whole codeword array. -/
theorem blk1_eq (t : Fin cfg0.N) :
    (AggRegion.iblk0 (F := Ideal) V c 1 t : Vec Ideal S32x64 .f32) = (V c main_arg1 : Vec Ideal S32x64 .f32) := by
  obtain ⟨-, -, -, e0, e1, -⟩ := idx_facts t
  funext y
  show (V c main_arg1 : Vec Ideal S32x64 .f32) (((cfg0.win 1).blk t).view.emb y) = _
  refine congrArg (V c main_arg1 : Vec Ideal S32x64 .f32) (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The scale block at every point is the whole scale array. -/
theorem blk2_eq (t : Fin cfg0.N) :
    (AggRegion.iblk0 (F := Ideal) V c 2 t : Vec Ideal S32x64 .f32) = (V c main_arg2 : Vec Ideal S32x64 .f32) := by
  obtain ⟨-, -, -, -, -, e0, e1⟩ := idx_facts t
  funext y
  show (V c main_arg2 : Vec Ideal S32x64 .f32) (((cfg0.win 2).blk t).view.emb y) = _
  refine congrArg (V c main_arg2 : Vec Ideal S32x64 .f32) (funext fun a => Fin.ext ?_)
  match a with
  | ⟨0, _⟩ => show win0_2.index t (0 : Fin 2) * 32 + 1 * (y 0).val = (y 0).val; omega
  | ⟨1, _⟩ => show win0_2.index t (1 : Fin 2) * 64 + 1 * (y 1).val = (y 1).val; omega

/-! ## Sums over the voxels of a batch -/

/-- The aggregate of voxel m of batch b in channel d; zero past the last voxel. -/
def term (I : Cert.Spec.S3.Idx → EReal) (cw sc : Cert.Spec.SK.Idx → EReal) (b : Fin 4) (d : Fin 64) (m : ℕ) : EReal :=
  if h : m < 8192 then Cert.Spec.E I cw sc b ⟨m, h⟩ d else 0

/-- The 512 voxels of tile j. -/
theorem tile_sum (I : Cert.Spec.S3.Idx → EReal) (cw sc : Cert.Spec.SK.Idx → EReal) (b : Fin 4) (d : Fin 64) (j : ℕ) (hj : j < 16) :
    ∑ r : Fin 512, Cert.Spec.E I cw sc b (⟨512 * j + r.val, by have := r.isLt; omega⟩ : Fin 8192) d
      = ∑ x ∈ Finset.range 512, term I cw sc b d (512 * j + x) := by
  rw [Finset.sum_range]
  refine Finset.sum_congr rfl fun r _ => ?_
  unfold term
  rw [dif_pos (by have := r.isLt; omega)]

/-- The voxels up to the end of tile j are those before tile j and tile j's. -/
theorem upto_succ (f : ℕ → EReal) (j : ℕ) :
    ∑ m ∈ Finset.range (512 * (j + 1)), f m = ∑ m ∈ Finset.range (512 * j), f m + ∑ x ∈ Finset.range 512, f (512 * j + x) := by
  rw [Nat.mul_succ, Finset.sum_range_add]

/-- All 16 tiles are the whole batch. -/
theorem all_tiles (I : Cert.Spec.S3.Idx → EReal) (cw sc : Cert.Spec.SK.Idx → EReal) (b : Fin 4) (d : Fin 64) :
    ∑ m ∈ Finset.range 8192, term I cw sc b d m = Cert.Spec.S I cw sc b d := by
  rw [Finset.sum_range]
  unfold Cert.Spec.S
  refine Finset.sum_congr rfl fun n _ => ?_
  unfold term
  rw [dif_pos n.isLt]

/-! ## One tile's contribution -/

variable (I : Cert.Spec.S3.Idx → EReal) (cw sc : Cert.Spec.SK.Idx → EReal)

/-- What tile t adds to the accumulator in channel d: the aggregates of its 512 voxels. -/
theorem tile_contrib (hI : V c main_v1 = I) (hcw : V c main_arg1 = cw) (hsc : V c main_arg2 = sc) (t : Fin cfg0.N)
    (b : Fin 4) (hb : b.val = t.val / 16) (d : Fin 64) :
    ∑ r : Fin 512, k0_pay4 (F := Ideal) (AggRegion.iblk0 (F := Ideal) V c 0 t) (AggRegion.iblk0 (F := Ideal) V c 1 t)
        (AggRegion.iblk0 (F := Ideal) V c 2 t) (ix2 r d)
      = ∑ x ∈ Finset.range 512, term I cw sc b d (512 * (t.val % 16) + x) := by
  have eb : (⟨t.val / 16, by have := t.isLt; have h64 : cfg0.N = 64 := N_0; omega⟩ : Fin 4) = b := Fin.ext hb.symm
  rw [← tile_sum I cw sc b d (t.val % 16) (by omega)]
  refine Finset.sum_congr rfl fun r _ => ?_
  rw [AggPayload.pay4_at, blk0_at, blk1_eq, blk2_eq, eb]
  subst hI hcw hsc
  rfl

/-! ## The accumulator after every point -/

open Cert.KernelIdeal.AggRegion in
/-- After a batch's first tile the accumulator holds the tile's sums. -/
theorem acc_first (hI : V c main_v1 = I) (hcw : V c main_arg1 = cw) (hsc : V c main_arg2 = sc) (t : Fin cfg0.N)
    (h0 : t.val % 16 = 0) (b : Fin 4) (hb : b.val = t.val / 16) (d : Fin 64) :
    ((outsAt0 (F := Ideal) V c t.val t.isLt).2.2 : Vec Ideal S1x64 .f32) (ix2 0 d)
      = ∑ m ∈ Finset.range (512 * (t.val % 16 + 1)), term I cw sc b d m := by
  have h1 : ¬t.val % 16 = 15 := by omega
  rw [outsAt0_A V c t h0 h1]
  dsimp only [caseA]
  rw [acc_A c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk0 V c 0 t) (iblk0 V c 1 t) (iblk0 V c 2 t)]
  rw [AggPayload.pay1_eq, AggPayload.pay6_at, AggPayload.pay3_at, zero_add,
    tile_contrib V c I cw sc hI hcw hsc t b hb d, upto_succ]
  have e : 512 * (t.val % 16) = 0 := by omega
  rw [e, Finset.range_zero, Finset.sum_empty, zero_add]

open Cert.KernelIdeal.AggRegion in
/-- A later tile adds its sums to what the tile before left. -/
theorem acc_next (hI : V c main_v1 = I) (hcw : V c main_arg1 = cw) (hsc : V c main_arg2 = sc) (t : Fin cfg0.N)
    (h0 : ¬t.val % 16 = 0) (b : Fin 4) (hb : b.val = t.val / 16) (d : Fin 64)
    (ih : ((outsAt0 (F := Ideal) V c (t.val - 1) (Nat.lt_of_le_of_lt (Nat.sub_le _ _) t.isLt)).2.2 : Vec Ideal S1x64 .f32) (ix2 0 d)
      = ∑ m ∈ Finset.range (512 * (t.val % 16)), term I cw sc b d m) :
    ((outsAt0 (F := Ideal) V c t.val t.isLt).2.2 : Vec Ideal S1x64 .f32) (ix2 0 d)
      = ∑ m ∈ Finset.range (512 * (t.val % 16 + 1)), term I cw sc b d m := by
  by_cases h1 : t.val % 16 = 15
  · rw [outsAt0_C V c t h0 h1]
    dsimp only [caseC]
    rw [acc_C c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) ((hcond0_1 t).mpr h1)
      (iblk0 V c 0 t) (iblk0 V c 1 t) (iblk0 V c 2 t)
      (outsAt0 V c (t.val - 1) (Nat.lt_of_le_of_lt (Nat.sub_le _ _) t.isLt)).2.2]
    rw [AggPayload.pay1_eq, AggPayload.pay6_at, ih, tile_contrib V c I cw sc hI hcw hsc t b hb d, upto_succ]
  · rw [outsAt0_B V c t h0 h1]
    dsimp only [caseB]
    rw [acc_B c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) (fun h => h1 ((hcond0_1 t).mp h))
      (iblk0 V c 0 t) (iblk0 V c 1 t) (iblk0 V c 2 t)
      (outsAt0 V c (t.val - 1) (Nat.lt_of_le_of_lt (Nat.sub_le _ _) t.isLt)).2.2]
    rw [AggPayload.pay1_eq, AggPayload.pay6_at, ih, tile_contrib V c I cw sc hI hcw hsc t b hb d, upto_succ]

/-- After point n, tile n % 16 of batch n / 16, the accumulator holds in channel d the aggregates summed over the
    voxels of the batch up to the end of that tile. -/
theorem acc_inv (hI : V c main_v1 = I) (hcw : V c main_arg1 = cw) (hsc : V c main_arg2 = sc) (d : Fin 64) :
    ∀ (n : ℕ) (hn : n < cfg0.N) (b : Fin 4), b.val = n / 16 →
      ((AggRegion.outsAt0 (F := Ideal) V c n hn).2.2 : Vec Ideal S1x64 .f32) (ix2 0 d)
        = ∑ m ∈ Finset.range (512 * (n % 16 + 1)), term I cw sc b d m
  | 0, hn, b, hb => acc_first V c I cw sc hI hcw hsc ⟨0, hn⟩ rfl b hb d
  | n + 1, hn, b, hb => by
    by_cases h0 : (n + 1) % 16 = 0
    · exact acc_first V c I cw sc hI hcw hsc ⟨n + 1, hn⟩ h0 b hb d
    · refine acc_next V c I cw sc hI hcw hsc ⟨n + 1, hn⟩ h0 b hb d ?_
      have ih := acc_inv hI hcw hsc d n (Nat.lt_of_succ_lt hn) b (by omega)
      have e : 512 * (n % 16 + 1) = 512 * ((n + 1) % 16) := by omega
      rw [e] at ih
      exact ih

/-- After the last tile of batch b the accumulator holds, in channel d, the aggregate summed over the batch's 8192
    voxels. -/
theorem acc_last_of (I : S4x8192x64.Idx → EReal) (cw sc : S32x64.Idx → EReal) (hI : V c main_v1 = I)
    (hcw : V c main_arg1 = cw) (hsc : V c main_arg2 = sc) (b : Fin 4) (d : Fin 64) (h : 16 * b.val + 15 < cfg0.N) :
    (AggRegion.outsAt0 (F := Ideal) V c (16 * b.val + 15) h).2.2 (ix2 0 d) = Cert.Spec.S I cw sc b d := by
  have e : 512 * ((16 * b.val + 15) % 16 + 1) = 8192 := by omega
  have hinv := acc_inv V c I cw sc hI hcw hsc d (16 * b.val + 15) h b (by omega)
  rw [e, all_tiles] at hinv
  exact hinv

end Cert.KernelIdeal.AggAcc

end
-- ==== Proof.AggValueS.lean ====
/-
  The second output of the aggregation region, index by index, over the extended reals.

  The second output has one row of 64 channels per batch. Its block is written back only at a batch's last tile,
  point 16 b + 15, where the body copies the accumulator into it; the accumulator there holds, per channel, the
  aggregates of the batch's 8192 voxels summed. The four rows tile the array.
-/
import proofs.«175521_j30193620091340_1_alg».proof.Proof.AggValueE
import proofs.«175521_j30193620091340_1_alg».proof.Proof.AggAcc

set_option maxRecDepth 16384

noncomputable section

namespace Cert.KernelIdeal.AggValue

open Cert.KernelIdeal Cert.KernelIdeal.Gen Cert.KernelIdeal.AggRegion Cert.KernelIdeal.AggPayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The second output's buffer at a batch's last tile -/

/-- At a last tile the second output's buffer ends at the accumulator as the point leaves it, with a unit axis added. -/
theorem out4_eq (c : Dev nD) (t : Fin cfg0.N) (h1 : t.val % 16 = 15) :
    (outsAt0 V c t.val t.isLt).2.1 = k0_pay2 ((outsAt0 V c t.val t.isLt).2.2) := by
  have h0 : ¬t.val % 16 = 0 := by omega
  rw [outsAt0_C V c t h0 h1]
  unfold caseC
  dsimp only
  rw [out4_C c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) ((hcond0_1 t).mpr h1) (iblk0 V c 0 t) (iblk0 V c 1 t) (iblk0 V c 2 t)
      (outsAt0 V c (t.val - 1) (Nat.lt_of_le_of_lt (Nat.sub_le _ _) t.isLt)).2.2,
    acc_C c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) ((hcond0_1 t).mpr h1) (iblk0 V c 0 t) (iblk0 V c 1 t) (iblk0 V c 2 t)
      (outsAt0 V c (t.val - 1) (Nat.lt_of_le_of_lt (Nat.sub_le _ _) t.isLt)).2.2]

/-- The accumulator after the last tile of batch b, at channel d: the aggregates of the batch summed. -/
theorem acc_at (c : Dev nD) (n : ℕ) (hn : n < cfg0.N) (b : Fin 4) (hb : n = 16 * b.val + 15) (d : Fin 64) :
    (outsAt0 V c n hn).2.2 (ix2 0 d) = Cert.Spec.S (feats V c) (cws V c) (scs V c) b d := by
  subst hb
  exact Cert.KernelIdeal.AggAcc.acc_last_of V c (feats V c) (cws V c) (scs V c) rfl rfl rfl b d hn

/-! ## The array the region leaves in the second output -/

/-- At (b, 0, d): the sum S over the voxels of batch b of the aggregates of channel d. -/
abbrev GS (c : Dev nD) : S4x1x64.Idx → Elt Ideal .f32 :=
  fun i => Cert.Spec.S (feats V c) (cws V c) (scs V c) (i 0) (i 2)

theorem GS_apply (c : Dev nD) (i : S4x1x64.Idx) (b : Fin 4) (d : Fin 64) (hb : i 0 = b) (hd : i 2 = d) :
    GS V c i = Cert.Spec.S (feats V c) (cws V c) (scs V c) b d := by
  subst hb hd; rfl

/-- What a last tile writes back is its block of GS. -/
theorem flushed4_eq (c : Dev nD) (t : Fin cfg0.N) (hf : (cfg0.win 4).flush t = true) :
    (dat0 V c).flushed 4 t = ((cfg0.win 4).blk t).view.read (Elt Ideal) (GS V c) := by
  have h1 : t.val % 16 = 15 := (flush0_4 t).mp hf
  have hN : t.val < 64 := lt_of_lt_of_eq t.isLt (show cfg0.N = 64 from N_0)
  show (cfg0.win 4).cut (grid0.coords t) ((dat0 V c).after 4 t) = _
  rw [after0_4, out4_eq V c t h1]
  funext (j : S1x1x64.Idx)
  obtain ⟨u, z, d, rfl⟩ : ∃ (u : Fin 1) (z : Fin 1) (d : Fin 64), j = ix3 u z d := ⟨j 0, j 1, j 2, eq_ix3 j⟩
  obtain rfl : u = 0 := Fin.ext (by omega)
  obtain rfl : z = 0 := Fin.ext (by omega)
  show k0_pay2 (F := Ideal) ((outsAt0 V c t.val t.isLt).2.2) (ix3 0 0 d) = GS V c (((cfg0.win 4).blk t).view.emb (ix3 (0 : Fin 1) (0 : Fin 1) d))
  rw [pay2_at]
  obtain ⟨-, -, -, -, -, -, -, -, -, -, p0, p1, p2⟩ := idx_facts t
  -- the row written is that of batch t / 16, and the channel of the element is d
  have hb : ((cfg0.win 4).blk t).view.emb (ix3 (0 : Fin 1) (0 : Fin 1) d) 0 = (⟨t.val / 16, by omega⟩ : Fin 4) := by
    apply Fin.ext
    show win0_4.index t (0 : Fin 3) * 1 + 1 * 0 = t.val / 16
    omega
  have hd : ((cfg0.win 4).blk t).view.emb (ix3 (0 : Fin 1) (0 : Fin 1) d) 2 = d := by
    apply Fin.ext
    show win0_4.index t (2 : Fin 3) * 64 + 1 * d.val = d.val
    omega
  rw [GS_apply V c _ _ d hb hd]
  exact acc_at V c t.val t.isLt ⟨t.val / 16, by omega⟩ (by show t.val = 16 * (t.val / 16) + 15; omega) d

/-- An index of the second output is under point t's block when each coordinate is in the block's range. -/
theorem mem_blk4 (t : Fin cfg0.N) (i : S4x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_v2_1).slice (win0_4.rect t)).set ↔ _
  rw [View.set_slice_whole, Rect.mem_set_unit]
  exact Iff.rfl

/-- Every index of the second output is under a last tile's block: the row of batch b under point 16 b + 15. -/
theorem covered4 (i : S4x1x64.Idx) : ∃ t : Fin cfg0.N, (cfg0.win 4).flush t = true ∧ i ∈ ((cfg0.win 4).blk t).view.set := by
  have hi0 : (i 0).val < 4 := (i 0).isLt
  have hi1 : (i 1).val < 1 := (i 1).isLt
  have hi2 : (i 2).val < 64 := (i 2).isLt
  have hN : grid0.N = 64 := N_0
  obtain ⟨t, ht⟩ : ∃ t : Fin cfg0.N, t.val = 16 * (i 0).val + 15 :=
    ⟨⟨16 * (i 0).val + 15, by show _ < grid0.N; omega⟩, rfl⟩
  obtain ⟨-, -, -, -, -, -, -, -, -, -, p0, p1, p2⟩ := idx_facts t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 64 ≤ (i 2).val ∧ (i 2).val < win0_4.index t (2 : Fin 3) * 64 + 64; omega

/-- The second output after the region is GS of the three input arrays on entry. -/
theorem final_S (c : Dev nD) : (dat0 V c).arrAt 4 cfg0.N = GS V c :=
  (dat0 V c).arrAt_eq_of_cover 4 (GS V c) (flushed4_eq V c) covered4

/-- The second output after the region, index by index. -/
theorem arr_S (c : Dev nD) (b : Fin 4) (d : Fin 64) :
    (dat0 (F := Ideal) V c).arrAt 4 cfg0.N (ix3 b 0 d) = Cert.Spec.S (feats V c) (cws V c) (scs V c) b d :=
  congrFun (final_S V c) (ix3 b 0 d)

end Cert.KernelIdeal.AggValue

end
-- ==== Proof.KernelValue.lean ====
/-
  The idealized kernel program's result, index by index.

  The result array is the transposed reshape of the gating kernel's output. That output at (b, n, d) is
  max (E[b,n,d] · (1 + gate[b,d])) 0, where E is the aggregation kernel's first output (kept by the host operations
  between the two kernels) and the gate is what those host operations make of the aggregation kernel's second output,
  the aggregate summed over the voxels. Both are the specified functions of the voxel features (the transposed reshape
  of the input) and of the codewords, scales, weights and bias as launched.
-/
import proofs.«175521_j30193620091340_1_alg».proof.Proof.Whole
import proofs.«175521_j30193620091340_1_alg».proof.Proof.HostGlue
import proofs.«175521_j30193620091340_1_alg».proof.Proof.GateValue
import proofs.«175521_j30193620091340_1_alg».proof.Proof.AggValueS
import proofs.«175521_j30193620091340_1_alg».proof.Proof.Spec

noncomputable section

namespace Cert.KernelIdeal.KernelValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The five arrays the result is a function of, as the two kernels and the host operations between them find them. -/
abbrev feats (c : Dev nD) : S4x8192x64.Idx → EReal := Whole.V1 m c main_v1
abbrev cws (c : Dev nD) : S32x64.Idx → EReal := Whole.V1 m c main_arg1
abbrev scs (c : Dev nD) : S32x64.Idx → EReal := Whole.V1 m c main_arg2
abbrev wts (c : Dev nD) : S64x64.Idx → EReal := Whole.W2 m c (Proc.devRef .tc main_arg3)
abbrev bia (c : Dev nD) : S64.Idx → EReal := Whole.W2 m c (Proc.devRef .tc main_arg4)

/-- The gating kernel finds the aggregate E in its first window's array. -/
theorem agg_at (c : Dev nD) (b : Fin 4) (n : Fin 8192) (d : Fin 64) :
    GateValue.aggIn (Whole.V3 m) c (ix3 b n d) = Cert.Spec.E (feats m c) (cws m c) (scs m c) b n d := by
  show StableHlo.after (hostOps1 (F := Ideal)) (Whole.W2 m c) (Proc.devRef .tc main_v2_0) (ix3 b n d) = _
  rw [HostGlue.agg_kept (Whole.W2 m c)]
  rw [show Whole.W2 m c (Proc.devRef .tc main_v2_0) = (AggRegion.dat0 (F := Ideal) (Whole.V1 m) c).arrAt 3 cfg0.N from Whole.W2_arr m c 3]
  exact AggValue.arr_E (Whole.V1 m) c b n d

/-- And the gate in its second window's array. -/
theorem gate_at (c : Dev nD) (b : Fin 4) (d : Fin 64) :
    GateValue.gateIn (Whole.V3 m) c (ix3 b 0 d) = Cert.Spec.gate (feats m c) (cws m c) (scs m c) (wts m c) (bia m c) b d := by
  show StableHlo.after (hostOps1 (F := Ideal)) (Whole.W2 m c) (Proc.devRef .tc main_v17) (ix3 b 0 d) = _
  rw [HostGlue.gate_at (Whole.W2 m c) b d]
  have hS : ∀ k : Fin 64, Whole.W2 m c (Proc.devRef .tc main_v2_1) (ix3 b 0 k) = Cert.Spec.S (feats m c) (cws m c) (scs m c) b k := fun k => by
    rw [show Whole.W2 m c (Proc.devRef .tc main_v2_1) = (AggRegion.dat0 (F := Ideal) (Whole.V1 m) c).arrAt 4 cfg0.N from Whole.W2_arr m c 4]
    exact AggValue.arr_S (Whole.V1 m) c b k
  simp only [hS]
  rfl

/-- The result at (b, d, t, h, w) is the specified function at voxel 1024 t + 32 h + w. -/
theorem result_at (c : Dev nD) (b : Fin 4) (d : Fin 64) (t : Fin 8) (h w : Fin 32) :
    Whole.W5 m c (Proc.devRef .tc main_v20) (ix5 b d t h w)
      = Cert.Spec.out (feats m c) (cws m c) (scs m c) (wts m c) (bia m c) b ⟨t.val * 1024 + h.val * 32 + w.val, by omega⟩ d := by
  show StableHlo.after (hostOps2 (F := Ideal)) (Whole.W4 m c) (Proc.devRef .tc main_v20) (ix5 b d t h w) = _
  rw [HostGlue.tail_at (Whole.W4 m c) b d t h w]
  rw [show Whole.W4 m c (Proc.devRef .tc main_v18) = (GateRegion.dat1 (F := Ideal) (Whole.V3 m) c).arrAt 2 cfg1.N from Whole.W4_arr m c 2]
  rw [GateValue.arr_out (Whole.V3 m) c b _ d, agg_at m c b _ d, gate_at m c b d]
  rfl

/-! ## The five arrays, from the launch memory -/

theorem feats_eq (c : Dev nD) : feats m c = transpose S4x8192x64 [0, 2, 1] (shapeCast S4x64x8192 (m ((c.tc : Thread nD τ).loc main_arg0)) shapeCasts_S4x64x8x32x32_S4x64x8192) transposes_S4x64x8192_S4x8192x64_0_2_1 :=
  HostGlue.feat_eq (Whole.W0 m c)
theorem cws_eq (c : Dev nD) : cws m c = m ((c.tc : Thread nD τ).loc main_arg1) :=
  StableHlo.after_of_writes_sub hostOps0 _ hostOps0_writes (r := main_arg1) (by decide)
theorem scs_eq (c : Dev nD) : scs m c = m ((c.tc : Thread nD τ).loc main_arg2) :=
  StableHlo.after_of_writes_sub hostOps0 _ hostOps0_writes (r := main_arg2) (by decide)
theorem wts_eq (c : Dev nD) : wts m c = m ((c.tc : Thread nD τ).loc main_arg3) :=
  (Whole.W2_of_ne m c main_arg3 (by decide)).trans (StableHlo.after_of_writes_sub hostOps0 _ hostOps0_writes (r := main_arg3) (by decide))
theorem bia_eq (c : Dev nD) : bia m c = m ((c.tc : Thread nD τ).loc main_arg4) :=
  (Whole.W2_of_ne m c main_arg4 (by decide)).trans (StableHlo.after_of_writes_sub hostOps0 _ hostOps0_writes (r := main_arg4) (by decide))

end Cert.KernelIdeal.KernelValue

end
-- ==== Proof.RefAlgebra.lean ====
/-
  Extended-real facts about the gate. The exponential of an extended real is nonnegative, so the logistic function's
  denominator 1 + e^(-z) is at least 1 and its value 1 / (1 + e^(-z)) is nonnegative. For a nonnegative g the extended
  reals distribute: E + E · g = E · (1 + g), whatever E is.
-/
import proofs.«175521_j30193620091340_1_alg».proof.Proof.Spec
import Mathlib.Data.EReal.Inv
import Mathlib.Data.EReal.Operations

noncomputable section

namespace Cert.RefAlgebra

open Idealize.ShloMosaic

/-- The word 0x3F800000 is the number one. -/
theorem one_eq : Cert.Spec.one = (1 : EReal) := by
  simp [Cert.Spec.one, Ideal.ofBits, Ideal.ieee]
  rw [← EReal.coe_mul]
  norm_num

/-- The exponential is nonnegative: 0 at -∞, +∞ at +∞, the real exponential in between. -/
theorem exp_nonneg (y : EReal) : 0 ≤ Ideal.exp y := by
  induction y with
  | bot => exact le_of_eq Ideal.exp_bot.symm
  | top => rw [Ideal.exp_top]; exact le_top
  | coe r => rw [Ideal.exp_coe]; exact EReal.coe_nonneg.2 (Real.exp_pos r).le

/-- The logistic function 1 / (1 + e^y) is nonnegative. -/
theorem gate_nonneg (y : EReal) : 0 ≤ Ideal.div Cert.Spec.one (Cert.Spec.one + Ideal.exp y) := by
  rw [one_eq]
  have h1 : (1 : EReal) ≤ 1 + Ideal.exp y := by
    calc (1 : EReal) = 1 + 0 := (add_zero 1).symm
      _ ≤ 1 + Ideal.exp y := add_le_add (le_refl 1) (exp_nonneg y)
  have h0 : (0 : EReal) ≤ 1 + Ideal.exp y := le_trans zero_le_one h1
  have hne : (1 + Ideal.exp y : EReal) ≠ 0 := fun h => by
    rw [h] at h1; exact absurd h1 (not_le.2 zero_lt_one)
  unfold Ideal.div
  rw [if_neg hne, one_mul]
  exact EReal.inv_nonneg_of_nonneg h0

/-- E + E · g = E · (1 + g) for a nonnegative g. -/
theorem add_mul_eq (E g : EReal) (hg : 0 ≤ g) : E + E * g = E * (Cert.Spec.one + g) := by
  rw [one_eq, EReal.left_distrib_of_nonneg zero_le_one hg, mul_one]

end Cert.RefAlgebra

end
-- ==== Proof.RefSide.lean ====
/-
  The reference program's value, read index by index. Its stages are followed from the voxel features I (the transposed
  reshape of the input, kept as one opaque array) to the result: the residuals I[b,n,d] - c[k,d], the logits, their
  maximum over the 32 codewords, the shifted exponentials and their sum, the softmax-weighted residuals and their
  aggregate over the codewords, the aggregate summed over the voxels, the linear layer and the logistic gate, and last
  max (E + E · gate) 0 at the voxel n = 1024 t + 32 h + w. Since the gate is nonnegative, E + E · gate = E · (1 + gate).
-/
import proofs.«175521_j30193620091340_1_alg».proof.Proof.Gen.ReferenceIdeal.Read
import proofs.«175521_j30193620091340_1_alg».proof.Proof.Spec
import proofs.«175521_j30193620091340_1_alg».proof.Proof.RefAlgebra
import Idealize.ShloMosaic.PureOps.Reduce

noncomputable section

namespace Cert.RefSide

open Cert.ReferenceIdeal Cert.ReferenceIdeal.Gen Cert.ReferenceIdeal.Read Idealize.ShloMosaic Idealize.ShloMosaic.ValueIdx

variable (x0 : (⟨S4x64x8x32x32, .f32⟩ : BufTy).Contents (Elt Ideal)) (x1 x2 : (⟨S32x64, .f32⟩ : BufTy).Contents (Elt Ideal))
  (x3 : (⟨S64x64, .f32⟩ : BufTy).Contents (Elt Ideal)) (x4 : (⟨S64, .f32⟩ : BufTy).Contents (Elt Ideal))

/-! ## Index equations: a stage's operand index at explicit coordinates -/

theorem idx_v2_v4 (b : Fin 4) (n : Fin 8192) (k : Fin 32) (d : Fin 64) :
    idx_main_v2 (idx_main_v4 (ix4 b n k d)) = ix3 b n d :=
  funext fun a => match a with | ⟨0, _⟩ => rfl | ⟨1, _⟩ => rfl | ⟨2, _⟩ => rfl

theorem idx_v3_v5 (b : Fin 4) (n : Fin 8192) (k : Fin 32) (d : Fin 64) :
    idx_main_v3 (idx_main_v5 (ix4 b n k d)) = ix2 k d :=
  funext fun a => match a with | ⟨0, _⟩ => rfl | ⟨1, _⟩ => rfl

theorem idx_v7_v9 (b : Fin 4) (n : Fin 8192) (k : Fin 32) (d : Fin 64) :
    idx_main_v7 (idx_main_v9 (ix4 b n k d)) = ix2 k d :=
  funext fun a => match a with | ⟨0, _⟩ => rfl | ⟨1, _⟩ => rfl

/-! ## The stages -/

/-- The residual of voxel n's feature in channel d against codeword k. -/
theorem v6_at (b : Fin 4) (n : Fin 8192) (k : Fin 32) (d : Fin 64) :
    val_main_v6 (F := Ideal) x0 x1 (ix4 b n k d) = val_main_v1 (F := Ideal) x0 (ix3 b n d) - x1 (ix2 k d) := by
  rw [val_main_v6_apply, val_main_v4_apply, val_main_v2_apply, val_main_v5_apply, val_main_v3_apply]
  simp only [idx_v2_v4, idx_v3_v5, Ideal.subf_def]

/-- The logit of codeword k. -/
theorem v10_at (b : Fin 4) (n : Fin 8192) (k : Fin 32) (d : Fin 64) :
    val_main_v10 (F := Ideal) x0 x1 x2 (ix4 b n k d)
      = Cert.Spec.logit (val_main_v1 (F := Ideal) x0 (ix3 b n d)) (fun k => x1 (ix2 k d)) (fun k => x2 (ix2 k d)) k := by
  rw [val_main_v10_apply, val_main_v9_apply, val_main_v7_apply, val_main_v8_apply, v6_at]
  simp only [idx_v7_v9, Ideal.mulf_def]
  rfl

/-- The reduced index (b, n, d) with codeword k put back on the third axis is (b, n, k, d). -/
theorem lift_d2 (h : S4x8192x32x64.Reduces [2] S4x8192x64) (b : Fin 4) (n : Fin 8192) (d : Fin 64)
    (k : Fin (S4x8192x32x64.size 2)) : h.lift (ix3 b n d) k = ix4 b n (⟨k.val, k.isLt⟩ : Fin 32) d :=
  funext fun a => Fin.ext (by
    rw [h.lift_val]
    match a with | ⟨0, _⟩ => rfl | ⟨1, _⟩ => rfl | ⟨2, _⟩ => rfl | ⟨3, _⟩ => rfl)

/-- The maximum over the codewords, taken from -∞. -/
theorem v11_at (b : Fin 4) (n : Fin 8192) (d : Fin 64) :
    val_main_v11 (F := Ideal) x0 x1 x2 (ix3 b n d)
      = (Finset.univ : Finset (Fin 32)).fold max Cert.Spec.negInf
          (Cert.Spec.logit (val_main_v1 (F := Ideal) x0 (ix3 b n d)) (fun k => x1 (ix2 k d)) (fun k => x2 (ix2 k d))) := by
  have h : S4x8192x32x64.Reduces [2] S4x8192x64 := by decide
  unfold val_main_v11
  rw [Host.reduce_eq_fold_single FloatOps.maximumf _ _ reducesTo_S4x8192x32x64_S4x8192x64_d2 h h_S_]
  have hf : (val_main_v10 (F := Ideal) x0 x1 x2 ∘ h.lift (ix3 b n d))
      = Cert.Spec.logit (val_main_v1 (F := Ideal) x0 (ix3 b n d)) (fun k => x1 (ix2 k d)) (fun k => x2 (ix2 k d)) :=
    funext fun k => by
      show val_main_v10 (F := Ideal) x0 x1 x2 (h.lift (ix3 b n d) k) = _
      rw [lift_d2 h b n d k, v10_at]
      rfl
  rw [hf]
  rfl

/-- The largest logit. -/
theorem v13_at (b : Fin 4) (n : Fin 8192) (d : Fin 64) :
    val_main_v13 (F := Ideal) x0 x1 x2 (ix3 b n d)
      = Cert.Spec.top (val_main_v1 (F := Ideal) x0 (ix3 b n d)) (fun k => x1 (ix2 k d)) (fun k => x2 (ix2 k d)) := by
  rw [val_main_v13_apply, val_main_v12_apply, val_main_cst_0_apply, v11_at]
  rfl

theorem idx_v14_v15 (b : Fin 4) (n : Fin 8192) (k : Fin 32) (d : Fin 64) :
    idx_main_v14 (idx_main_v15 (ix4 b n k d)) = ix3 b n d :=
  funext fun a => match a with | ⟨0, _⟩ => rfl | ⟨1, _⟩ => rfl | ⟨2, _⟩ => rfl

theorem idx_v18 (b : Fin 4) (n : Fin 8192) (d : Fin 64) (k : Fin 32) :
    idx_main_v18 (ix3 b n d) k = ix4 b n k d :=
  funext fun a => match a with | ⟨0, _⟩ => rfl | ⟨1, _⟩ => rfl | ⟨2, _⟩ => rfl | ⟨3, _⟩ => rfl

theorem idx_v19_v20 (b : Fin 4) (n : Fin 8192) (k : Fin 32) (d : Fin 64) :
    idx_main_v19 (idx_main_v20 (ix4 b n k d)) = ix3 b n d :=
  funext fun a => match a with | ⟨0, _⟩ => rfl | ⟨1, _⟩ => rfl | ⟨2, _⟩ => rfl

theorem idx_v38 (b : Fin 4) (n : Fin 8192) (d : Fin 64) (k : Fin 32) :
    idx_main_v38 (ix3 b n d) k = ix4 b n k d :=
  funext fun a => match a with | ⟨0, _⟩ => rfl | ⟨1, _⟩ => rfl | ⟨2, _⟩ => rfl | ⟨3, _⟩ => rfl

theorem idx_v23 (b : Fin 4) (k : Fin 32) (d : Fin 64) (n : Fin 8192) :
    idx_main_v23 (ix3 b k d) n = ix4 b n k d :=
  funext fun a => match a with | ⟨0, _⟩ => rfl | ⟨1, _⟩ => rfl | ⟨2, _⟩ => rfl | ⟨3, _⟩ => rfl

theorem idx_v24 (b : Fin 4) (d : Fin 64) (k : Fin 32) :
    idx_main_v24 (ix2 b d) k = ix3 b k d :=
  funext fun a => match a with | ⟨0, _⟩ => rfl | ⟨1, _⟩ => rfl | ⟨2, _⟩ => rfl

/-- The shifted exponential of logit k. -/
theorem v17_at (b : Fin 4) (n : Fin 8192) (k : Fin 32) (d : Fin 64) :
    val_main_v17 (F := Ideal) x0 x1 x2 (ix4 b n k d)
      = Cert.Spec.ew (val_main_v1 (F := Ideal) x0 (ix3 b n d)) (fun k => x1 (ix2 k d)) (fun k => x2 (ix2 k d)) k := by
  rw [val_main_v17_apply, val_main_v16_apply, val_main_v15_apply, val_main_v14_apply, v10_at]
  simp only [idx_v14_v15, v13_at, Ideal.subf_def, Ideal.hostUnary_exp_def]
  rfl

/-- The sum of the shifted exponentials. -/
theorem v18_at (b : Fin 4) (n : Fin 8192) (d : Fin 64) :
    val_main_v18 (F := Ideal) x0 x1 x2 (ix3 b n d)
      = ∑ k : Fin 32, Cert.Spec.ew (val_main_v1 (F := Ideal) x0 (ix3 b n d)) (fun k => x1 (ix2 k d)) (fun k => x2 (ix2 k d)) k := by
  rw [val_main_v18_apply, val_main_cst_1_apply]
  simp only [idx_v18, v17_at, Ideal.ofBits_def, Ideal.ofBits_zero_f32, zero_add]

/-- Codeword k's term: its softmax weight times its residual. -/
theorem v22_at (b : Fin 4) (n : Fin 8192) (k : Fin 32) (d : Fin 64) :
    val_main_v22 (F := Ideal) x0 x1 x2 (ix4 b n k d) = Cert.Spec.T (val_main_v1 (F := Ideal) x0) x1 x2 b n k d := by
  rw [val_main_v22_apply, val_main_v21_apply, val_main_v20_apply, val_main_v19_apply, v17_at, v6_at]
  simp only [idx_v19_v20, v18_at, Ideal.hostDivf_def, Ideal.mulf_def]
  rfl

/-- The aggregate over the codewords. -/
theorem v38_at (b : Fin 4) (n : Fin 8192) (d : Fin 64) :
    val_main_v38 (F := Ideal) x0 x1 x2 (ix3 b n d) = Cert.Spec.E (val_main_v1 (F := Ideal) x0) x1 x2 b n d := by
  rw [val_main_v38_apply, val_main_cst_7_apply, Cert.Spec.E_eq_sum]
  simp only [idx_v38, v22_at, Ideal.ofBits_def, Ideal.ofBits_zero_f32, zero_add]

/-- The aggregate summed over the voxels: the program sums over the voxels first and the codewords second. -/
theorem v24_at (b : Fin 4) (d : Fin 64) :
    val_main_v24 (F := Ideal) x0 x1 x2 (ix2 b d) = Cert.Spec.S (val_main_v1 (F := Ideal) x0) x1 x2 b d := by
  rw [val_main_v24_apply, val_main_cst_3_apply]
  simp only [idx_v24, val_main_v23_apply, val_main_cst_2_apply, idx_v23, v22_at, Ideal.ofBits_def,
    Ideal.ofBits_zero_f32, zero_add]
  rw [Finset.sum_comm]
  rfl

theorem idx_v27 (k d : Fin 64) : idx_main_v27 (ix2 k d) = ix2 d k :=
  funext fun a => match a with | ⟨0, _⟩ => rfl | ⟨1, _⟩ => rfl

theorem lidx_v28 (b : Fin 4) (d k : Fin 64) : lidx_main_v28 (ix2 b d) k = ix2 b k :=
  funext fun a => match a with | ⟨0, _⟩ => rfl | ⟨1, _⟩ => rfl

theorem ridx_v28 (b : Fin 4) (d k : Fin 64) : ridx_main_v28 (ix2 b d) k = ix2 k d :=
  funext fun a => match a with | ⟨0, _⟩ => rfl | ⟨1, _⟩ => rfl

theorem idx_v29_v30 (b : Fin 4) (d : Fin 64) : idx_main_v29 (idx_main_v30 (ix2 b d)) = ix1 d :=
  funext fun a => match a with | ⟨0, _⟩ => rfl

theorem idx_v41_v42 (b : Fin 4) (d : Fin 64) (t : Fin 8) (h w : Fin 32) :
    idx_main_v41 (idx_main_v42 (ix5 b d t h w)) = ix2 b d :=
  funext fun a => match a with | ⟨0, _⟩ => rfl | ⟨1, _⟩ => rfl

/-- Position (t, h, w) of channel d is voxel 1024 t + 32 h + w. -/
theorem idx_v39_v40 (b : Fin 4) (d : Fin 64) (t : Fin 8) (h w : Fin 32) :
    idx_main_v39 (idx_main_v40 (ix5 b d t h w))
      = ix3 b (⟨t.val * 1024 + h.val * 32 + w.val, by omega⟩ : Fin 8192) d := by
  have hb := b.isLt; have hd := d.isLt; have ht := t.isLt; have hh := h.isLt; have hw := w.isLt
  funext a
  match a with
  | ⟨0, _⟩ =>
    exact Fin.ext (by
      show ((((b.val * 64 + d.val) * 8 + t.val) * 32 + h.val) * 32 + w.val) / 524288 = b.val
      omega)
  | ⟨1, _⟩ =>
    exact Fin.ext (by
      show ((((b.val * 64 + d.val) * 8 + t.val) * 32 + h.val) * 32 + w.val) % 8192 = t.val * 1024 + h.val * 32 + w.val
      omega)
  | ⟨2, _⟩ =>
    exact Fin.ext (by
      show ((((b.val * 64 + d.val) * 8 + t.val) * 32 + h.val) * 32 + w.val) / 8192 % 64 = d.val
      omega)

/-- The mean over the 32 codewords. -/
theorem v26_at (b : Fin 4) (d : Fin 64) :
    val_main_v26 (F := Ideal) x0 x1 x2 (ix2 b d)
      = Ideal.div (Cert.Spec.S (val_main_v1 (F := Ideal) x0) x1 x2 b d) Cert.Spec.k32 := by
  rw [val_main_v26_apply, val_main_v25_apply, val_main_cst_4_apply, v24_at]
  rfl

/-- The transposed weights. -/
theorem v27_at (k d : Fin 64) : val_main_v27 (F := Ideal) x3 (ix2 k d) = x3 (ix2 d k) := by
  rw [val_main_v27_apply, idx_v27]

/-- What the logistic function is applied to. -/
theorem v31_at (b : Fin 4) (d : Fin 64) :
    val_main_v31 (F := Ideal) x0 x1 x2 x3 x4 (ix2 b d) = Cert.Spec.pre (val_main_v1 (F := Ideal) x0) x1 x2 x3 x4 b d := by
  rw [val_main_v31_apply, val_main_v28_apply, val_main_v30_apply, val_main_v29_apply]
  simp only [lidx_v28, ridx_v28, idx_v29_v30, v26_at, v27_at, Ideal.addf_def]
  rfl

/-- The gate. -/
theorem v37_at (b : Fin 4) (d : Fin 64) :
    val_main_v37 (F := Ideal) x0 x1 x2 x3 x4 (ix2 b d) = Cert.Spec.gate (val_main_v1 (F := Ideal) x0) x1 x2 x3 x4 b d := by
  rw [val_main_v37_apply, val_main_v36_apply, val_main_cst_6_apply, val_main_v35_apply, val_main_v34_apply,
    val_main_cst_5_apply, val_main_v33_apply, val_main_v32_apply, v31_at]
  rfl

/-- The aggregate, laid out by position. -/
theorem v40_at (b : Fin 4) (d : Fin 64) (t : Fin 8) (h w : Fin 32) :
    val_main_v40 (F := Ideal) x0 x1 x2 (ix5 b d t h w)
      = Cert.Spec.E (val_main_v1 (F := Ideal) x0) x1 x2 b (⟨t.val * 1024 + h.val * 32 + w.val, by omega⟩ : Fin 8192) d := by
  rw [val_main_v40_apply, val_main_v39_apply, idx_v39_v40, v38_at]

/-- The gate, laid out by position. -/
theorem v42_at (b : Fin 4) (d : Fin 64) (t : Fin 8) (h w : Fin 32) :
    val_main_v42 (F := Ideal) x0 x1 x2 x3 x4 (ix5 b d t h w)
      = Cert.Spec.gate (val_main_v1 (F := Ideal) x0) x1 x2 x3 x4 b d := by
  rw [val_main_v42_apply, val_main_v41_apply, idx_v41_v42, v37_at]

/-- The gate is nonnegative. -/
theorem gate_nonneg (I : Cert.Spec.S3.Idx → EReal) (cw sc : Cert.Spec.SK.Idx → EReal) (W : Cert.Spec.SW.Idx → EReal)
    (bias : Cert.Spec.SB.Idx → EReal) (b : Fin 4) (d : Fin 64) : 0 ≤ Cert.Spec.gate I cw sc W bias b d :=
  Cert.RefAlgebra.gate_nonneg _

/-- The reference's result at (b, d, t, h, w) is the specified function of its voxel features at voxel 1024 t + 32 h + w. -/
theorem ref_out (b : Fin 4) (d : Fin 64) (t : Fin 8) (h w : Fin 32) :
    val_main_v45 (F := Ideal) x0 x1 x2 x3 x4 (ix5 b d t h w)
      = Cert.Spec.out (val_main_v1 (F := Ideal) x0) x1 x2 x3 x4 b ⟨t.val * 1024 + h.val * 32 + w.val, by omega⟩ d := by
  rw [val_main_v45_apply, val_main_call0_v0_apply, val_main_call0_cst_apply, val_main_v44_apply, val_main_v43_apply,
    v40_at, v42_at]
  simp only [Ideal.ofBits_def, Ideal.ofBits_zero_f32, Ideal.addf_def, Ideal.mulf_def, Ideal.maximumf_def]
  rw [Cert.RefAlgebra.add_mul_eq _ _ (gate_nonneg _ _ _ _ _ b d)]
  rfl

end Cert.RefSide

end
-- ==== Proof.lean ====
/-
  A soft codebook assignment with residual aggregation and a global gate, computed two ways.

  Each voxel n of batch b has 64 features I[b,n,·] (the input reshaped and transposed). Per channel d the feature is
  compared with 32 codewords: r_k = I[b,n,d] - c[k,d], s_k = σ[k,d] · r_k², a softmax of the s_k over k, and
  E[b,n,d] = Σ_k softmax_k · r_k. The gate is the logistic function of the linear layer applied to the mean over the
  codewords of Σ_n Σ_k softmax_k · r_k, and the result is max (E · (1 + gate)) 0, laid out like the input.

  The kernel program computes E tile by tile in a first kernel, which also accumulates E's column sums over a batch's
  sixteen tiles in a scratch buffer and emits them at the last tile; host operations turn those sums into the gate; a
  second kernel applies it. The reference computes the whole four-dimensional tensor of weighted residuals, sums it
  over the voxels and then over the codewords for the gate, and over the codewords for E, and forms
  max (E + E · gate) 0. On the extended reals the two agree: sums may be taken in any order and grouping, and
  E + E · gate = E · (1 + gate) because the gate, a quotient 1 / (1 + e^(-z)), is nonnegative.

  The three frames: the kernel program, at the word level and idealized, is run as five segments (host operations,
  kernel, host operations, kernel, host operations), each kernel region from its body's triple at every grid point,
  and ends with every buffer at a named fold of the launch memory, in which no argument array is touched; the
  reference is a straight line of host operations. The idealization rewrote nothing, so there is nothing to preserve.
-/
import proofs.«175521_j30193620091340_1_alg».proof.Defs
import proofs.«175521_j30193620091340_1_alg».proof.Proof.Gen.Kernel
import proofs.«175521_j30193620091340_1_alg».proof.Proof.Gen.KernelIdeal
import proofs.«175521_j30193620091340_1_alg».proof.Proof.Gen.ReferenceIdeal
import proofs.«175521_j30193620091340_1_alg».proof.Proof.Gen.Pre_finite_inputs
import proofs.«175521_j30193620091340_1_alg».proof.Proof.Gen.ReferenceIdeal.Run
import proofs.«175521_j30193620091340_1_alg».proof.Proof.WholeBits
import proofs.«175521_j30193620091340_1_alg».proof.Proof.Whole
import proofs.«175521_j30193620091340_1_alg».proof.Proof.KernelValue
import proofs.«175521_j30193620091340_1_alg».proof.Proof.RefSide
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

theorem frame_p : Cert.frame_Kernel (hKernel := Cert.Kernel.Gen.facts) (hPre_finite_inputs := Cert.Pre_finite_inputs.Gen.facts) :=
  fun m ρ _ => Cert.Kernel.Whole.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Whole.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The two results are one function of the arguments -/

/-- From memories that agree on the five arguments, the reference's result is the kernel program's last fold at its
    result buffer: index by index both are the specified function, of the same voxel features (the same two layout
    operations applied to the same input) and the same codewords, scales, weights and bias. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v45 (F := Ideal) m' c
      = Cert.KernelIdeal.Whole.W5 (F := Ideal) m c (Proc.devRef .tc Cert.KernelIdeal.main_v20) := by
  rw [Cert.ReferenceIdeal.Read.val_main_v45_eq, h0, h1, h2, h3, h4]
  funext i
  obtain ⟨b, d, t, h, w, rfl⟩ : ∃ (b : Fin 4) (d : Fin 64) (t : Fin 8) (h w : Fin 32), i = ix5 b d t h w := ⟨i 0, i 1, i 2, i 3, i 4, eq_ix5 i⟩
  refine (Cert.RefSide.ref_out _ _ _ _ _ b d t h w).trans ?_
  refine Eq.trans ?_ (Cert.KernelIdeal.KernelValue.result_at m c b d t h w).symm
  rw [Cert.KernelIdeal.KernelValue.feats_eq, Cert.KernelIdeal.KernelValue.cws_eq, Cert.KernelIdeal.KernelValue.scs_eq,
    Cert.KernelIdeal.KernelValue.wts_eq, Cert.KernelIdeal.KernelValue.bia_eq]
  rfl

/-! ## The claims -/

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Whole.W5 (F := Ideal) m c (Proc.devRef .tc Cert.KernelIdeal.main_v20), ?_, ?_⟩
  · exact (θ_run Cert.KernelIdeal.defs _ _).mono (fun r h c =>
      ⟨h c _ (Cert.KernelIdeal.Whole.mem_uc Cert.KernelIdeal.main_v20 (by decide)),
      (h c _ (Cert.KernelIdeal.Whole.mem_uc Cert.KernelIdeal.main_arg0 (by decide))).trans (Cert.KernelIdeal.Whole.W5_main_arg0 m c),
      (h c _ (Cert.KernelIdeal.Whole.mem_uc Cert.KernelIdeal.main_arg1 (by decide))).trans (Cert.KernelIdeal.Whole.W5_main_arg1 m c),
      (h c _ (Cert.KernelIdeal.Whole.mem_uc Cert.KernelIdeal.main_arg2 (by decide))).trans (Cert.KernelIdeal.Whole.W5_main_arg2 m c),
      (h c _ (Cert.KernelIdeal.Whole.mem_uc Cert.KernelIdeal.main_arg3 (by decide))).trans (Cert.KernelIdeal.Whole.W5_main_arg3 m c),
      (h c _ (Cert.KernelIdeal.Whole.mem_uc Cert.KernelIdeal.main_arg4 (by decide))).trans (Cert.KernelIdeal.Whole.W5_main_arg4 m c)⟩) (Cert.KernelIdeal.Whole.run_all (F := Ideal) m ρ)
  · exact (θ_run Cert.ReferenceIdeal.defs _ _).mono (fun _ h c =>
      ⟨(h c).1.trans (result_eq m m' c (hagree c).1 (hagree c).2.1 (hagree c).2.2.1 (hagree c).2.2.2.1 (hagree c).2.2.2.2), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
